-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x800000 : Shape := ⟨2, ![2, 800000]⟩
abbrev S50000 : Shape := ⟨1, ![50000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x32 : Shape := ⟨2, ![128, 32]⟩
abbrev S32x4 : Shape := ⟨2, ![32, 4]⟩
abbrev S4 : Shape := ⟨1, ![4]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg9 : FVec F S128x32 .f32) (main_arg10 : FVec F S32 .f32) (main_arg11 : FVec F S32x4 .f32) (main_arg12 : FVec F S4 .f32) (main_v33 : IVec S_ 1) : IVec S_ 1 :=
  let main_v34 : FVec F S128x32 .f32 := Host.absf main_arg9
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x4 .f32 := Host.absf main_arg11
  let main_cst_16 : FVec F S_ .f32 := constant S_ .f32 0x7F800000#32
  let main_v45 : FVec F S32x4 .f32 := broadcastInDim S32x4 ![] bcast_S_S32x4 main_cst_16
  let main_v46 : IVec S32x4 1 := cmpf .olt main_v44 main_v45
  let main_c_17 : IVec S_ 1 := constantI S_ 1 1#1
  let main_v47 : IVec S_ 1 := (fun x v => Host.reduce IntOp.andi x v reducesTo_S32x4_S_d0_1 h_S_) main_v46 main_c_17
  let main_v48 : IVec S_ 1 := andi main_v43 main_v47
  let main_v49 : FVec F S4 .f32 := Host.absf main_arg12
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg6 : FVec F S64 .f32) (main_arg7 : FVec F S64x128 .f32) (main_arg8 : FVec F S128 .f32) (main_arg9 : FVec F S128x32 .f32) (main_arg10 : FVec F S32 .f32) (main_arg11 : FVec F S32x4 .f32) (main_arg12 : FVec F S4 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x3 .f32) (main_arg1 : IVec S2x800000 32) (main_arg2 : IVec S50000 32) (main_arg3 : FVec F S3x32 .f32) (main_arg4 : FVec F S32 .f32) (main_arg5 : FVec F S32x64 .f32) (main_arg6 : FVec F S64 .f32) (main_arg7 : FVec F S64x128 .f32) (main_arg8 : FVec F S128 .f32) (main_arg9 : FVec F S128x32 .f32) (main_arg10 : FVec F S32 .f32) (main_arg11 : FVec F S32x4 .f32) (main_arg12 : FVec F S4 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x32 .f32 := Host.absf main_arg3
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg6 main_arg7 main_arg8 main_arg9 main_arg10 main_arg11 main_arg12 main_v13 main_v16
-- ==== Kernel.lean ====
abbrev S50000x3 : Shape := ⟨2, ![50000, 3]⟩
abbrev S2x800000 : Shape := ⟨2, ![2, 800000]⟩
abbrev S50000 : Shape := ⟨1, ![50000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x32 : Shape := ⟨2, ![128, 32]⟩
abbrev S32x4 : Shape := ⟨2, ![32, 4]⟩
abbrev S4 : Shape := ⟨1, ![4]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x32 : Shape := ⟨2, ![50000, 32]⟩
abbrev S10000x3 : Shape := ⟨2, ![10000, 3]⟩
abbrev S10000x32 : Shape := ⟨2, ![10000, 32]⟩
abbrev S850000x32 : Shape := ⟨2, ![850000, 32]⟩
abbrev S1x32 : Shape := ⟨2, ![1, 32]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩
abbrev S50000x128 : Shape := ⟨2, ![50000, 128]⟩
abbrev S10000x128 : Shape := ⟨2, ![10000, 128]⟩
abbrev S850000x128 : Shape := ⟨2, ![850000, 128]⟩
abbrev S1x128 : Shape := ⟨2, ![1, 128]⟩
abbrev S512 : Shape := ⟨1, ![512]⟩
abbrev S50000x1 : Shape := ⟨2, ![50000, 1]⟩
abbrev S512x128 : Shape := ⟨2, ![512, 128]⟩
abbrev S2000x1 : Shape := ⟨2, ![2000, 1]⟩
abbrev S2000x128 : Shape := ⟨2, ![2000, 128]⟩
abbrev S2000x512 : Shape := ⟨2, ![2000, 512]⟩
abbrev S512x1 : Shape := ⟨2, ![512, 1]⟩
abbrev S1x4 : Shape := ⟨2, ![1, 4]⟩
abbrev S512x4 : Shape := ⟨2, ![512, 4]⟩
abbrev S512x32 : Shape := ⟨2, ![512, 32]⟩

abbrev nBuf : Space → Nat
  | .hbm => 120
  | .vmem => 34
  | .smem => 0
  | _ => 0

abbrev bufTy : (tb : Table) → Fin (tcTables nBuf tb) → BufTy
  | .hbm, ⟨0, _⟩ => ⟨S50000x3, .f32⟩
  | .hbm, ⟨1, _⟩ => ⟨S2x800000, .i32⟩
  | .hbm, ⟨2, _⟩ => ⟨S50000, .i32⟩
  | .hbm, ⟨3, _⟩ => ⟨S3x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x32, .f32⟩
  | .hbm, ⟨10, _⟩ => ⟨S32, .f32⟩
  | .hbm, ⟨11, _⟩ => ⟨S32x4, .f32⟩
  | .hbm, ⟨12, _⟩ => ⟨S4, .f32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x32, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x32, .f32⟩
  | .hbm, ⟨63, _⟩ => ⟨S850000x1, .f32⟩
  | .hbm, ⟨64, _⟩ => ⟨S850000x32, .f32⟩
  | .hbm, ⟨65, _⟩ => ⟨S850000x32, .f32⟩
  | .hbm, ⟨66, _⟩ => ⟨S_, .f32⟩
  | .hbm, ⟨67, _⟩ => ⟨S50000x32, .f32⟩
  | .hbm, ⟨68, _⟩ => ⟨S850000x1, .i32⟩
  | .hbm, ⟨69, _⟩ => ⟨S50000x32, .f32⟩
  | .hbm, ⟨70, _⟩ => ⟨S1x32, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x1, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S50000x128, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x128, .f32⟩
  | .hbm, ⟨99, _⟩ => ⟨S850000x1, .f32⟩
  | .hbm, ⟨100, _⟩ => ⟨S850000x128, .f32⟩
  | .hbm, ⟨101, _⟩ => ⟨S850000x128, .f32⟩
  | .hbm, ⟨102, _⟩ => ⟨S_, .f32⟩
  | .hbm, ⟨103, _⟩ => ⟨S50000x128, .f32⟩
  | .hbm, ⟨104, _⟩ => ⟨S850000x1, .i32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S_, .f32⟩
  | .hbm, ⟨109, _⟩ => ⟨S50000, .f32⟩
  | .hbm, ⟨110, _⟩ => ⟨S_, .f32⟩
  | .hbm, ⟨111, _⟩ => ⟨S512, .f32⟩
  | .hbm, ⟨112, _⟩ => ⟨S50000x1, .i32⟩
  | .hbm, ⟨113, _⟩ => ⟨S512, .f32⟩
  | .hbm, ⟨114, _⟩ => ⟨S50000x1, .i32⟩
  | .hbm, ⟨115, _⟩ => ⟨S512x128, .f32⟩
  | .hbm, ⟨116, _⟩ => ⟨S512x1, .f32⟩
  | .hbm, ⟨117, _⟩ => ⟨S1x32, .f32⟩
  | .hbm, ⟨118, _⟩ => ⟨S1x4, .f32⟩
  | .hbm, ⟨119, _⟩ => ⟨S512x4, .f32⟩
  | .local _ .vmem, ⟨0, _⟩ => ⟨S10000x3, .f32⟩
  | .local _ .vmem, ⟨1, _⟩ => ⟨S10000x3, .f32⟩
  | .local _ .vmem, ⟨2, _⟩ => ⟨S3x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S2000x1, .i32⟩
  | .local _ .vmem, ⟨23, _⟩ => ⟨S2000x1, .i32⟩
  | .local _ .vmem, ⟨24, _⟩ => ⟨S2000x128, .f32⟩
  | .local _ .vmem, ⟨25, _⟩ => ⟨S2000x128, .f32⟩
  | .local _ .vmem, ⟨26, _⟩ => ⟨S512x128, .f32⟩
  | .local _ .vmem, ⟨27, _⟩ => ⟨S512x128, .f32⟩
  | .local _ .vmem, ⟨28, _⟩ => ⟨S512x1, .f32⟩
  | .local _ .vmem, ⟨29, _⟩ => ⟨S128x32, .f32⟩
  | .local _ .vmem, ⟨30, _⟩ => ⟨S1x32, .f32⟩
  | .local _ .vmem, ⟨31, _⟩ => ⟨S32x4, .f32⟩
  | .local _ .vmem, ⟨32, _⟩ => ⟨S1x4, .f32⟩
  | .local _ .vmem, ⟨33, _⟩ => ⟨S512x4, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_15 : Ref sig .tc := ⟨.hbm, 108, rfl⟩
abbrev main_v76 : Ref sig .tc := ⟨.hbm, 109, rfl⟩
abbrev main_cst_16 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc5_stg0_0 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg6_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc5_sem0_0 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem6_0 : DmaSem sig := 33

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S512x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S32x4 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x4 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S512x4 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x32_S3x32_0_0 : ∀ a, (![0, 0] : Fin 2 → Nat) a + S3x32.size a ≤ S3x32.size a
  h_S3x32 : 0 < S3x32.numel
  inb_S10000x32_S10000x32_0_0 : ∀ a, (![0, 0] : Fin 2 → Nat) a + S10000x32.size a ≤ S10000x32.size a
  h_S10000x32 : 0 < S10000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S512 : S_.BroadcastsInDim S512 (![] : Fin 0 → Fin S512.rank)
  bcast_S50000_S50000x1_0 : S50000.BroadcastsInDim S50000x1 (![0] : Fin 1 → Fin S50000x1.rank)
  shapeCasts_S50000_S50000x1 : S50000.ShapeCasts S50000x1
  inb_S512x128_S512x128_0_0 : ∀ a, (![0, 0] : Fin 2 → Nat) a + S512x128.size a ≤ S512x128.size a
  h_S512x128 : 0 < S512x128.numel
  iota_S2000x512_d1_w32 : S2000x512.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  natLt_1_32 : 1 < 32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S512x128_S512x128 : S512x128.ShapeCasts S512x128
  shapeCasts_S512_S512x1 : S512.ShapeCasts S512x1
  shapeCasts_S4_S1x4 : S4.ShapeCasts S1x4
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S128x32_S128x32_0_0 : ∀ a, (![0, 0] : Fin 2 → Nat) a + S128x32.size a ≤ S128x32.size a
  h_S128x32 : 0 < S128x32.numel
  broadcasts_S1x32_S512x32 : S1x32.Broadcasts S512x32
  inb_S32x4_S32x4_0_0 : ∀ a, (![0, 0] : Fin 2 → Nat) a + S32x4.size a ≤ S32x4.size a
  h_S32x4 : 0 < S32x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S512x4 : S1x4.Broadcasts S512x4
  inb_S512x4_S512x4_0_0 : ∀ a, (![0, 0] : Fin 2 → Nat) a + S512x4.size a ≤ S512x4.size a
  h_S512x4 : 0 < S512x4.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x3_S3x32_S10000x32_1_0_0_1_n_n_wf : DotDims.WF S10000x3 S3x32 S10000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S10000x32_S32x64_S10000x64_1_0_0_1_n_n_wf : DotDims.WF S10000x32 S32x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x128_S10000x128_1_0_0_1_n_n_wf : DotDims.WF S10000x64 S64x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512_S50000x1_S50000_n_0_0_1_wf : ScatterDims.WF S512 S50000x1 S50000 [] [0] [0] 1
  dot_S2000x512_S2000x128_S512x128_0_0_1_1_n_n_wf : DotDims.WF S2000x512 S2000x128 S512x128 [0] [0] [1] [1] [] []
  dot_S512x128_S128x32_S512x32_1_0_0_1_n_n_wf : DotDims.WF S512x128 S128x32 S512x32 [1] [0] [0] [1] [] []
  dot_S512x32_S32x4_S512x4_1_0_0_1_n_n_wf : DotDims.WF S512x32 S32x4 S512x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S50000x3.size a
  hwx0_0 : ∀ i : grid0.Coords, EltTy.bits .f32 = 32 ∨ (Rect.block (s := S50000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x32.size a ≤ S3x32.size a
  hwx0_1 : ∀ i : grid0.Coords, EltTy.bits .f32 = 32 ∨ (Rect.block (s := S3x32) S3x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S50000x32.size a
  hwx0_2 : ∀ i : grid0.Coords, EltTy.bits .f32 = 32 ∨ (Rect.block (s := S50000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S50000x32.size a
  hwx1_0 : ∀ i : grid1.Coords, EltTy.bits .f32 = 32 ∨ (Rect.block (s := S50000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S50000x128.size a
  hwx2_3 : ∀ i : grid2.Coords, EltTy.bits .f32 = 32 ∨ (Rect.block (s := S50000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1.size a ≤ S50000x1.size a
  hwx4_0 : ∀ i : grid4.Coords, EltTy.bits .i32 = 32 ∨ (Rect.block (s := S50000x1) S2000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x128.size a ≤ S512x128.size a
  hwx4_2 : ∀ i : grid4.Coords, EltTy.bits .f32 = 32 ∨ (Rect.block (s := S512x128) S512x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x128.size a ≤ S512x128.size a
  hwx5_0 : ∀ i : grid5.Coords, EltTy.bits .f32 = 32 ∨ (Rect.block (s := S512x128) S512x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x1.size a ≤ S512x1.size a
  hwx5_1 : ∀ i : grid5.Coords, EltTy.bits .f32 = 32 ∨ (Rect.block (s := S512x1) S512x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x32.size a ≤ S128x32.size a
  hwx5_2 : ∀ i : grid5.Coords, EltTy.bits .f32 = 32 ∨ (Rect.block (s := S128x32) S128x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S32x4.size a ≤ S32x4.size a
  hwx5_4 : ∀ i : grid5.Coords, EltTy.bits .f32 = 32 ∨ (Rect.block (s := S32x4) S32x4.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x4.size a ≤ S1x4.size a
  hwx5_5 : ∀ i : grid5.Coords, EltTy.bits .f32 = 32 ∨ (Rect.block (s := S1x4) S1x4.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S512x4.size a ≤ S512x4.size a
  hwx5_6 : ∀ i : grid5.Coords, EltTy.bits .f32 = 32 ∨ (Rect.block (s := S512x4) S512x4.size (cc5_transform_6 i) (hinb5_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x3_S3x32_S10000x32_1_0_0_1_n_n : DotDims S10000x3 S3x32 S10000x32 where
  lhsContracting := [1]
  rhsContracting := [0]
  lhsNonContracting := [0]
  rhsNonContracting := [1]
  lhsBatch := []
  rhsBatch := []
  wf := dot_S10000x3_S3x32_S10000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf
def dot_S512x32_S32x4_S512x4_1_0_0_1_n_n : DotDims S512x32 S32x4 S512x4 where
  lhsContracting := [1]
  rhsContracting := [0]
  lhsNonContracting := [0]
  rhsNonContracting := [1]
  lhsBatch := []
  rhsBatch := []
  wf := dot_S512x32_S32x4_S512x4_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v80) S2000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S512x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S512x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v82) S512x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S128x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg11) S32x4.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S1x4.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v85) S512x4.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x3 : Shape := ⟨2, ![50000, 3]⟩
abbrev S2x800000 : Shape := ⟨2, ![2, 800000]⟩
abbrev S50000 : Shape := ⟨1, ![50000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x32 : Shape := ⟨2, ![128, 32]⟩
abbrev S32x4 : Shape := ⟨2, ![32, 4]⟩
abbrev S4 : Shape := ⟨1, ![4]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x32 : Shape := ⟨2, ![50000, 32]⟩
abbrev S850000x32 : Shape := ⟨2, ![850000, 32]⟩
abbrev S1x32 : Shape := ⟨2, ![1, 32]⟩
abbrev S50000x64 : Shape := ⟨2, ![50000, 64]⟩
abbrev S850000x64 : Shape := ⟨2, ![850000, 64]⟩
abbrev S1x64 : Shape := ⟨2, ![1, 64]⟩
abbrev S50000x128 : Shape := ⟨2, ![50000, 128]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x32 : Shape := ⟨2, ![512, 32]⟩
abbrev S512x4 : Shape := ⟨2, ![512, 4]⟩
abbrev S1x4 : Shape := ⟨2, ![1, 4]⟩

abbrev nBuf : Space → Nat
  | .hbm => 149
  | .vmem => 0
  | .smem => 0
  | _ => 0

abbrev hbmTy0_0 (i : Nat) : BufTy := match i % 128 with
  | 0 => ⟨S50000x3, .f32⟩
  | 1 => ⟨S2x800000, .i32⟩
  | 2 => ⟨S50000, .i32⟩
  | 3 => ⟨S3x32, .f32⟩
  | 4 => ⟨S32, .f32⟩
  | 5 => ⟨S32x64, .f32⟩
  | 6 => ⟨S64, .f32⟩
  | 7 => ⟨S64x128, .f32⟩
  | 8 => ⟨S128, .f32⟩
  | 9 => ⟨S128x32, .f32⟩
  | 10 => ⟨S32, .f32⟩
  | 11 => ⟨S32x4, .f32⟩
  | 12 => ⟨S4, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x32, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x32, .f32⟩
  | 63 => ⟨S850000x1, .f32⟩
  | 64 => ⟨S850000x32, .f32⟩
  | 65 => ⟨S850000x32, .f32⟩
  | 66 => ⟨S_, .f32⟩
  | 67 => ⟨S50000x32, .f32⟩
  | 68 => ⟨S850000x1, .i32⟩
  | 69 => ⟨S50000x32, .f32⟩
  | 70 => ⟨S1x32, .f32⟩
  | 71 => ⟨S50000x32, .f32⟩
  | 72 => ⟨S50000x32, .f32⟩
  | 73 => ⟨S_, .f32⟩
  | 74 => ⟨S50000x32, .f32⟩
  | 75 => ⟨S50000x32, .f32⟩
  | 76 => ⟨S50000x64, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x64, .f32⟩
  | 86 => ⟨S850000x1, .f32⟩
  | 87 => ⟨S850000x64, .f32⟩
  | 88 => ⟨S850000x64, .f32⟩
  | 89 => ⟨S_, .f32⟩
  | 90 => ⟨S50000x64, .f32⟩
  | 91 => ⟨S850000x1, .i32⟩
  | 92 => ⟨S50000x64, .f32⟩
  | 93 => ⟨S1x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S50000x128, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x128, .f32⟩
  | 109 => ⟨S850000x1, .f32⟩
  | 110 => ⟨S850000x128, .f32⟩
  | 111 => ⟨S850000x128, .f32⟩
  | 112 => ⟨S_, .f32⟩
  | 113 => ⟨S50000x128, .f32⟩
  | 114 => ⟨S850000x1, .i32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S_, .f32⟩
  | 123 => ⟨S512x128, .f32⟩
  | 124 => ⟨S50000x1, .i32⟩
  | 125 => ⟨S512x128, .f32⟩
  | 126 => ⟨S_, .f32⟩
  | 127 => ⟨S50000, .f32⟩
  | _ => ⟨S50000x3, .f32⟩

abbrev hbmTy0_1 (i : Nat) : BufTy := match i % 128 with
  | 0 => ⟨S_, .f32⟩
  | 1 => ⟨S512, .f32⟩
  | 2 => ⟨S50000x1, .i32⟩
  | 3 => ⟨S512, .f32⟩
  | 4 => ⟨S_, .f32⟩
  | 5 => ⟨S512, .f32⟩
  | 6 => ⟨S512, .f32⟩
  | 7 => ⟨S512x1, .f32⟩
  | 8 => ⟨S512x128, .f32⟩
  | 9 => ⟨S512x128, .f32⟩
  | 10 => ⟨S512x32, .f32⟩
  | 11 => ⟨S1x32, .f32⟩
  | 12 => ⟨S512x32, .f32⟩
  | 13 => ⟨S512x32, .f32⟩
  | 14 => ⟨S_, .f32⟩
  | 15 => ⟨S512x32, .f32⟩
  | 16 => ⟨S512x32, .f32⟩
  | 17 => ⟨S512x4, .f32⟩
  | 18 => ⟨S1x4, .f32⟩
  | 19 => ⟨S512x4, .f32⟩
  | 20 => ⟨S512x4, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call4_cst : Ref sig .tc := ⟨.hbm, 142, rfl⟩
abbrev main_call4_v0 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  bcast_S4_S1x4_1 : S4.BroadcastsInDim S1x4 (![1] : Fin 1 → Fin S1x4.rank)
  bcast_S1x4_S512x4_0_1 : S1x4.BroadcastsInDim S512x4 (![0, 1] : Fin 2 → Fin S512x4.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x3_S3x32_S50000x32_1_0_0_1_n_n_wf : DotDims.WF S50000x3 S3x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x64_S50000x64_1_0_0_1_n_n_wf : DotDims.WF S50000x32 S32x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x32_S512x32_1_0_0_1_n_n_wf : DotDims.WF S512x128 S128x32 S512x32 [1] [0] [0] [1] [] []
  dot_S512x32_S32x4_S512x4_1_0_0_1_n_n_wf : DotDims.WF S512x32 S32x4 S512x4 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x3_S3x32_S50000x32_1_0_0_1_n_n : DotDims S50000x3 S3x32 S50000x32 where
  lhsContracting := [1]
  rhsContracting := [0]
  lhsNonContracting := [0]
  rhsNonContracting := [1]
  lhsBatch := []
  rhsBatch := []
  wf := dot_S50000x3_S3x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf
def dot_S512x32_S32x4_S512x4_1_0_0_1_n_n : DotDims S512x32 S32x4 S512x4 where
  lhsContracting := [1]
  rhsContracting := [0]
  lhsNonContracting := [0]
  rhsNonContracting := [1]
  lhsBatch := []
  rhsBatch := []
  wf := dot_S512x32_S32x4_S512x4_1_0_0_1_n_n_wf

class Facts : Prop extends Facts₀ where

variable [Facts]
-- ==== Proof.Region0.lean ====
import proofs.«420813_j4252017623589_2_alg».proof.Proof.Gen.KernelIdeal.Frame
import proofs.«420813_j4252017623589_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

namespace Region0

/-! ## The two products at an index

The kernel multiplies a block of 10000 rows by the whole 3 × 32 weight; the host multiplies all 50000 rows by it.
Each record contracts axis 1 of the left operand with axis 0 of the right one, so at an output index (p, q) the left
operand is read at (p, k) and the right one at (k, q), k running over the three contracted positions. -/

/-- The zero offsets of a whole-buffer access. -/
theorem zero_offsets : (![0, 0] : Fin 2 → Nat) = fun _ => 0 :=
  funext fun a => match a with | ⟨0, _⟩ => rfl | ⟨1, _⟩ => rfl

/-- Left operand of the block product at output index `j` and contracted position `k`: entry (j₀, k). -/
abbrev blockLeft (j : S10000x32.Idx) (k : Fin 3) : S10000x3.Idx := fun a => match a with
  | ⟨0, _⟩ => ⟨(j 0).val, (j 0).isLt⟩
  | ⟨1, _⟩ => ⟨k.val, k.isLt⟩
/-- Right operand of either product at an output index with column `q` and contracted position `k`: entry (k, q). -/
abbrev blockRight (j : S10000x32.Idx) (k : Fin 3) : S3x32.Idx := fun a => match a with
  | ⟨0, _⟩ => ⟨k.val, k.isLt⟩
  | ⟨1, _⟩ => ⟨(j 1).val, (j 1).isLt⟩
/-- Left operand of the whole-array product at output index `i` and contracted position `k`: entry (i₀, k). -/
abbrev arrayLeft (i : S50000x32.Idx) (k : Fin 3) : S50000x3.Idx := fun a => match a with
  | ⟨0, _⟩ => ⟨(i 0).val, (i 0).isLt⟩
  | ⟨1, _⟩ => ⟨k.val, k.isLt⟩
/-- Right operand of the whole-array product at output index `i` and contracted position `k`: entry (k, i₁). -/
abbrev arrayRight (i : S50000x32.Idx) (k : Fin 3) : S3x32.Idx := fun a => match a with
  | ⟨0, _⟩ => ⟨k.val, k.isLt⟩
  | ⟨1, _⟩ => ⟨(i 1).val, (i 1).isLt⟩

/-! ### The block record's operand indices, axis by axis -/

theorem blockLhs_axis0 (j : S10000x32.Idx) (q : dot_S10000x3_S3x32_S10000x32_1_0_0_1_n_n.contr.Idx) :
    (dot_S10000x3_S3x32_S10000x32_1_0_0_1_n_n.lhsIdx j q 0).val = (j 0).val := by
  unfold DotDims.lhsIdx
  rw [dif_neg (show ¬(0 : Fin S10000x3.rank) ∈ dot_S10000x3_S3x32_S10000x32_1_0_0_1_n_n.lhsBatch by decide), dif_pos (show (0 : Fin S10000x3.rank) ∈ dot_S10000x3_S3x32_S10000x32_1_0_0_1_n_n.lhsNonContracting by decide)]
  rfl
theorem blockLhs_axis1 (j : S10000x32.Idx) (q : dot_S10000x3_S3x32_S10000x32_1_0_0_1_n_n.contr.Idx) :
    (dot_S10000x3_S3x32_S10000x32_1_0_0_1_n_n.lhsIdx j q 1).val = (q ⟨0, by decide⟩).val :=
  dot_S10000x3_S3x32_S10000x32_1_0_0_1_n_n.lhsIdx_val_of_single rfl j q
theorem blockRhs_axis0 (j : S10000x32.Idx) (q : dot_S10000x3_S3x32_S10000x32_1_0_0_1_n_n.contr.Idx) :
    (dot_S10000x3_S3x32_S10000x32_1_0_0_1_n_n.rhsIdx j q 0).val = (q ⟨0, by decide⟩).val :=
  dot_S10000x3_S3x32_S10000x32_1_0_0_1_n_n.rhsIdx_val_of_single rfl j q
theorem blockRhs_axis1 (j : S10000x32.Idx) (q : dot_S10000x3_S3x32_S10000x32_1_0_0_1_n_n.contr.Idx) :
    (dot_S10000x3_S3x32_S10000x32_1_0_0_1_n_n.rhsIdx j q 1).val = (j 1).val := by
  unfold DotDims.rhsIdx
  rw [dif_neg (show ¬(1 : Fin S3x32.rank) ∈ dot_S10000x3_S3x32_S10000x32_1_0_0_1_n_n.rhsBatch by decide), dif_pos (show (1 : Fin S3x32.rank) ∈ dot_S10000x3_S3x32_S10000x32_1_0_0_1_n_n.rhsNonContracting by decide)]
  rfl

/-- The body's payload at an index of the block: the conversions to the narrower format are the identity on the
    extended reals and the accumulator is the zero splat, so entry (p, q) is Σₖ x[p,k] · w[k,q]. -/
theorem block_product_apply (x : FVec Ideal S10000x3 .f32) (w : FVec Ideal S3x32 .f32) (j : S10000x32.Idx) :
    k0_pay1 (F := Ideal) x w j = ∑ k : Fin 3, x (blockLeft j k) * w (blockRight j k) := by
  unfold k0_pay1
  refine (Ideal.matmul_constant_zero_apply dot_S10000x3_S3x32_S10000x32_1_0_0_1_n_n none
    (truncf (F := Ideal) .bf16 x bitsLt_bf16_f32) (truncf (F := Ideal) .bf16 w bitsLt_bf16_f32) j).trans ?_
  rw [← Equiv.sum_comp (ValueIdx.contrEquiv1 dot_S10000x3_S3x32_S10000x32_1_0_0_1_n_n 3 rfl rfl).symm]
  refine Finset.sum_congr rfl fun k _ => ?_
  have hk := ValueIdx.contrEquiv1_symm_val dot_S10000x3_S3x32_S10000x32_1_0_0_1_n_n 3 rfl rfl k
  have el : dot_S10000x3_S3x32_S10000x32_1_0_0_1_n_n.lhsIdx j ((ValueIdx.contrEquiv1 dot_S10000x3_S3x32_S10000x32_1_0_0_1_n_n 3 rfl rfl).symm k) = blockLeft j k := funext fun a => Fin.ext (by
    match a with
    | ⟨0, _⟩ => exact blockLhs_axis0 _ _
    | ⟨1, _⟩ => exact (blockLhs_axis1 _ _).trans hk)
  have er : dot_S10000x3_S3x32_S10000x32_1_0_0_1_n_n.rhsIdx j ((ValueIdx.contrEquiv1 dot_S10000x3_S3x32_S10000x32_1_0_0_1_n_n 3 rfl rfl).symm k) = blockRight j k := funext fun a => Fin.ext (by
    match a with
    | ⟨0, _⟩ => exact (blockRhs_axis0 _ _).trans hk
    | ⟨1, _⟩ => exact blockRhs_axis1 _ _)
  rw [el, er]
  rfl

/-! ### The whole-array record's operand indices, axis by axis -/

theorem arrayLhs_axis0 (i : Cert.ReferenceIdeal.S50000x32.Idx) (q : Cert.ReferenceIdeal.dot_S50000x3_S3x32_S50000x32_1_0_0_1_n_n.contr.Idx) :
    (Cert.ReferenceIdeal.dot_S50000x3_S3x32_S50000x32_1_0_0_1_n_n.lhsIdx i q 0).val = (i 0).val := by
  unfold DotDims.lhsIdx
  rw [dif_neg (show ¬(0 : Fin Cert.ReferenceIdeal.S50000x3.rank) ∈ Cert.ReferenceIdeal.dot_S50000x3_S3x32_S50000x32_1_0_0_1_n_n.lhsBatch by decide), dif_pos (show (0 : Fin Cert.ReferenceIdeal.S50000x3.rank) ∈ Cert.ReferenceIdeal.dot_S50000x3_S3x32_S50000x32_1_0_0_1_n_n.lhsNonContracting by decide)]
  rfl
theorem arrayLhs_axis1 (i : Cert.ReferenceIdeal.S50000x32.Idx) (q : Cert.ReferenceIdeal.dot_S50000x3_S3x32_S50000x32_1_0_0_1_n_n.contr.Idx) :
    (Cert.ReferenceIdeal.dot_S50000x3_S3x32_S50000x32_1_0_0_1_n_n.lhsIdx i q 1).val = (q ⟨0, by decide⟩).val :=
  Cert.ReferenceIdeal.dot_S50000x3_S3x32_S50000x32_1_0_0_1_n_n.lhsIdx_val_of_single rfl i q
theorem arrayRhs_axis0 (i : Cert.ReferenceIdeal.S50000x32.Idx) (q : Cert.ReferenceIdeal.dot_S50000x3_S3x32_S50000x32_1_0_0_1_n_n.contr.Idx) :
    (Cert.ReferenceIdeal.dot_S50000x3_S3x32_S50000x32_1_0_0_1_n_n.rhsIdx i q 0).val = (q ⟨0, by decide⟩).val :=
  Cert.ReferenceIdeal.dot_S50000x3_S3x32_S50000x32_1_0_0_1_n_n.rhsIdx_val_of_single rfl i q
theorem arrayRhs_axis1 (i : Cert.ReferenceIdeal.S50000x32.Idx) (q : Cert.ReferenceIdeal.dot_S50000x3_S3x32_S50000x32_1_0_0_1_n_n.contr.Idx) :
    (Cert.ReferenceIdeal.dot_S50000x3_S3x32_S50000x32_1_0_0_1_n_n.rhsIdx i q 1).val = (i 1).val := by
  unfold DotDims.rhsIdx
  rw [dif_neg (show ¬(1 : Fin Cert.ReferenceIdeal.S3x32.rank) ∈ Cert.ReferenceIdeal.dot_S50000x3_S3x32_S50000x32_1_0_0_1_n_n.rhsBatch by decide), dif_pos (show (1 : Fin Cert.ReferenceIdeal.S3x32.rank) ∈ Cert.ReferenceIdeal.dot_S50000x3_S3x32_S50000x32_1_0_0_1_n_n.rhsNonContracting by decide)]
  rfl

/-- The host's product of the whole arrays at an index: with no accumulator, entry (i₀, i₁) is Σₖ A[i₀,k] · W[k,i₁]. -/
theorem array_product_apply (A : (⟨Cert.ReferenceIdeal.S50000x3, .f32⟩ : BufTy).Contents (Elt Ideal)) (W : (⟨Cert.ReferenceIdeal.S3x32, .f32⟩ : BufTy).Contents (Elt Ideal)) (i : Cert.ReferenceIdeal.S50000x32.Idx) :
    Host.dotGeneral (F := Ideal) (φ₁ := .f32) (φ₂ := .f32) Cert.ReferenceIdeal.dot_S50000x3_S3x32_S50000x32_1_0_0_1_n_n none A W i
      = ∑ k : Fin 3, A (arrayLeft i k) * W (arrayRight i k) := by
  simp only [Host.dotGeneral]
  rw [Ideal.dotGeneral_apply, ← Equiv.sum_comp (ValueIdx.contrEquiv1 Cert.ReferenceIdeal.dot_S50000x3_S3x32_S50000x32_1_0_0_1_n_n 3 rfl rfl).symm]
  refine Finset.sum_congr rfl fun k _ => ?_
  have hk := ValueIdx.contrEquiv1_symm_val Cert.ReferenceIdeal.dot_S50000x3_S3x32_S50000x32_1_0_0_1_n_n 3 rfl rfl k
  have el : Cert.ReferenceIdeal.dot_S50000x3_S3x32_S50000x32_1_0_0_1_n_n.lhsIdx i ((ValueIdx.contrEquiv1 Cert.ReferenceIdeal.dot_S50000x3_S3x32_S50000x32_1_0_0_1_n_n 3 rfl rfl).symm k) = arrayLeft i k := funext fun a => Fin.ext (by
    match a with
    | ⟨0, _⟩ => exact arrayLhs_axis0 _ _
    | ⟨1, _⟩ => exact (arrayLhs_axis1 _ _).trans hk)
  have er : Cert.ReferenceIdeal.dot_S50000x3_S3x32_S50000x32_1_0_0_1_n_n.rhsIdx i ((ValueIdx.contrEquiv1 Cert.ReferenceIdeal.dot_S50000x3_S3x32_S50000x32_1_0_0_1_n_n 3 rfl rfl).symm k) = arrayRight i k := funext fun a => Fin.ext (by
    match a with
    | ⟨0, _⟩ => exact (arrayRhs_axis0 _ _).trans hk
    | ⟨1, _⟩ => exact arrayRhs_axis1 _ _)
  rw [el, er]

/-! ## From the blocks to the array

The grid has five points. At point `t` the left window holds rows 10000 t … 10000 t + 9999 of the left array, the right
window holds the whole weight, and the output window's block is rows 10000 t … 10000 t + 9999 of the result, written
back at every point. So each written-back block is the matching block of the whole-array product, and the five blocks
fill the 50000 rows. -/

/-- The windows' index maps over the five points: the left and output windows sit at block row `t`, block column 0;
    the weight window stays at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t`, entry (p, k), is entry (10000 t + p, k) of the left array. -/
theorem left_block_apply (c : Dev nD) (t : Fin cfg0.N) (y : S10000x3.Idx) (i : S50000x3.Idx)
    (h0 : (i 0).val = t.val * 10000 + (y 0).val) (h1 : (i 1).val = (y 1).val) :
    (iblk0 V c 0 t : Vec Ideal S10000x3 .f32) y = (V c main_arg0 : S50000x3.Idx → Elt Ideal .f32) i := by
  obtain ⟨e0, e1, -, -, -, -⟩ := block_indices t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 3 + 1 * (y 1).val = (i 1).val; rw [e1, h1]; omega

/-- The weight window's block at every point is the whole weight. -/
theorem right_block_apply (c : Dev nD) (t : Fin cfg0.N) (y : S3x32.Idx) (i : S3x32.Idx)
    (h0 : (i 0).val = (y 0).val) (h1 : (i 1).val = (y 1).val) :
    (iblk0 V c 1 t : Vec Ideal S3x32 .f32) y = (V c main_arg3 : S3x32.Idx → Elt Ideal .f32) i := by
  obtain ⟨-, -, e2, e3, -, -⟩ := block_indices t
  unfold iblk0
  rw [View.read_apply]
  show V c main_arg3 _ = V c main_arg3 _
  congr 1
  funext a
  apply Fin.ext
  match a with
  | ⟨0, _⟩ => show win0_1.index t (0 : Fin 2) * 3 + 1 * (y 0).val = (i 0).val; rw [e2, h0]; omega
  | ⟨1, _⟩ => show win0_1.index t (1 : Fin 2) * 32 + 1 * (y 1).val = (i 1).val; rw [e3, h1]; omega

/-- What point `t` writes back is block `t` of the host product of the two arrays as the region finds them. -/
theorem flushed_block (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S50000x3_S3x32_S50000x32_1_0_0_1_n_n none (V c main_arg0 : (⟨Cert.ReferenceIdeal.S50000x3, .f32⟩ : BufTy).Contents (Elt Ideal)) (V c main_arg3 : (⟨Cert.ReferenceIdeal.S3x32, .f32⟩ : BufTy).Contents (Elt Ideal))) := by
  show (cfg0.win 2).cut (grid0.coords t) ((dat0 V c).after 2 t) = _
  rw [after0_2]
  unfold out0_2
  rw [View.canon_unit_zero zero_offsets]
  simp only [View.ld_unit_zero (S := S10000x3) zero_offsets, View.ld_unit_zero (S := S3x32) zero_offsets]
  obtain ⟨-, -, -, -, e4, e5⟩ := block_indices t
  funext j
  rw [View.read_apply]
  show k0_pay1 (F := Ideal) (iblk0 V c 0 t) (iblk0 V c 1 t) j = _
  refine (block_product_apply (iblk0 V c 0 t) (iblk0 V c 1 t) j).trans ?_
  refine Eq.trans ?_ (array_product_apply _ _ _).symm
  refine Finset.sum_congr rfl fun k _ => ?_
  have hl := left_block_apply V c t (blockLeft j k) (arrayLeft (((cfg0.win 2).blk t).view.emb j) k)
    (by show win0_2.index t (0 : Fin 2) * 10000 + 1 * (j 0).val = t.val * 10000 + (j 0).val; rw [e4]; omega) rfl
  have hr := right_block_apply V c t (blockRight j k) (arrayRight (((cfg0.win 2).blk t).view.emb j) k)
    rfl (by show win0_2.index t (1 : Fin 2) * 32 + 1 * (j 1).val = (j 1).val; rw [e5]; omega)
  rw [hl, hr]

/-- An index of the result array lies in point `t`'s block iff each coordinate lies in the block's range on its axis. -/
theorem mem_out_block (t : Fin cfg0.N) (i : S50000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

/-- Row `r` of the result lies in the block of point `r / 10000`: the five blocks fill the array. -/
theorem out_blocks_cover (i : S50000x32.Idx) :
    ∃ t : Fin cfg0.N, (cfg0.win 2).flush t = true ∧ i ∈ ((cfg0.win 2).blk t).view.set := by
  have hN : cfg0.N = 5 := N_0
  have hi0 : (i 0).val < 50000 := (i 0).isLt
  have hi1 : (i 1).val < 32 := (i 1).isLt
  refine ⟨⟨(i 0).val / 10000, by rw [hN]; omega⟩, flush0_2 _, ?_⟩
  obtain ⟨-, -, -, -, e4, e5⟩ := block_indices ⟨(i 0).val / 10000, by rw [hN]; omega⟩
  rw [mem_out_block]
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 32 ≤ (i 1).val ∧ (i 1).val < win0_2.index _ (1 : Fin 2) * 32 + 32
    rw [e5]; omega

end Region0

open Region0 in
/-- After the first pallas_call its output array is the host's product of the two arrays the call found. -/
theorem region0_value (c : Dev nD) :
    (dat0 (F := Ideal) V c).arrAt 2 cfg0.N
      = Host.dotGeneral (F := Ideal) (φ₁ := .f32) (φ₂ := .f32) Cert.ReferenceIdeal.dot_S50000x3_S3x32_S50000x32_1_0_0_1_n_n none (V c main_arg0 : (⟨Cert.ReferenceIdeal.S50000x3, .f32⟩ : BufTy).Contents (Elt Ideal)) (V c main_arg3 : (⟨Cert.ReferenceIdeal.S3x32, .f32⟩ : BufTy).Contents (Elt Ideal)) :=
  (dat0 (F := Ideal) V c).arrAt_eq_of_cover 2 _ (fun t _ => flushed_block V c t) out_blocks_cover

end Cert.KernelIdeal.RegionValue

end
-- ==== Proof.Region1.lean ====
import proofs.«420813_j4252017623589_2_alg».proof.Proof.Gen.KernelIdeal.Frame
import proofs.«420813_j4252017623589_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-! Region 1 is the fused bias + relu + matmul layer over five row blocks of 10000 rows. Element (r, c) of the output array is
    the sum over k of max(features[r,k] + bias[0,k], 0) * weights[k,c]: the body's payload says so of each block entry (the format changes are
    the identity on the extended reals and the accumulator is zero), the reference's dot_general of the relu of the biased features says so of
    each array entry, each block entry is the array entry at row 10000 * t + (row inside the block), and the five blocks tile the array. -/

namespace Region1

theorem zero_offsets : (![0, 0] : Fin 2 → Nat) = fun _ => 0 := funext fun a => by fin_cases a <;> rfl

/-- Entry (row of the output index, k) of the left block. -/
abbrev blkLhsAt (j : S10000x64.Idx) (k : Fin 32) : S10000x32.Idx := fun a => match a with
  | ⟨0, _⟩ => ⟨(j 0).val, (j 0).isLt⟩
  | ⟨1, _⟩ => ⟨k.val, k.isLt⟩
/-- Entry (k, column of the output index) of the weights. -/
abbrev blkRhsAt (j : S10000x64.Idx) (k : Fin 32) : S32x64.Idx := fun a => match a with
  | ⟨0, _⟩ => ⟨k.val, k.isLt⟩
  | ⟨1, _⟩ => ⟨(j 1).val, (j 1).isLt⟩
/-- Entry (0, k) of the bias row. -/
abbrev biasAt (k : Fin 32) : S1x32.Idx := fun a => match a with
  | ⟨0, _⟩ => ⟨0, Nat.one_pos⟩
  | ⟨1, _⟩ => ⟨k.val, k.isLt⟩

theorem blkdot_lhs_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem blkdot_lhs_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem blkdot_rhs_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem blkdot_rhs_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- Entry (r, c) of the body's payload: the sum over k of relu(left[r,k] + bias[0,k]) times weights[k,c]; the format changes are the identity on the
    extended reals and the accumulator is the zero splat. -/
theorem pay_apply (x0 : Vec Ideal S10000x32 .f32) (x1 : Vec Ideal S1x32 .f32) (x2 : Vec Ideal S32x64 .f32) (j : S10000x64.Idx) :
    k1_pay1 (F := Ideal) x0 x1 x2 j = ∑ k : Fin 32, max (x0 (blkLhsAt j k) + x1 (biasAt k)) 0 * x2 (blkRhsAt j k) := by
  unfold k1_pay1
  refine (Ideal.matmul_constant_zero_apply dot_S10000x32_S32x64_S10000x64_1_0_0_1_n_n none _ _ j).trans ?_
  rw [← Equiv.sum_comp (ValueIdx.contrEquiv1 dot_S10000x32_S32x64_S10000x64_1_0_0_1_n_n 32 rfl rfl).symm]
  refine Finset.sum_congr rfl fun k _ => ?_
  have hk := ValueIdx.contrEquiv1_symm_val dot_S10000x32_S32x64_S10000x64_1_0_0_1_n_n 32 rfl rfl k
  have el : dot_S10000x32_S32x64_S10000x64_1_0_0_1_n_n.lhsIdx j ((ValueIdx.contrEquiv1 dot_S10000x32_S32x64_S10000x64_1_0_0_1_n_n 32 rfl rfl).symm k) = blkLhsAt j k := funext fun a => Fin.ext (by
    match a with
    | ⟨0, _⟩ => exact blkdot_lhs_0 _ _
    | ⟨1, _⟩ => exact (blkdot_lhs_1 _ _).trans hk)
  have er : dot_S10000x32_S32x64_S10000x64_1_0_0_1_n_n.rhsIdx j ((ValueIdx.contrEquiv1 dot_S10000x32_S32x64_S10000x64_1_0_0_1_n_n 32 rfl rfl).symm k) = blkRhsAt j k := funext fun a => Fin.ext (by
    match a with
    | ⟨0, _⟩ => exact (blkdot_rhs_0 _ _).trans hk
    | ⟨1, _⟩ => exact blkdot_rhs_1 _ _)
  rw [el, er]
  have hb : broadcastTo S10000x32 (shapeCast S1x32 x1 shapeCasts_S1x32_S1x32) broadcasts_S1x32_S10000x32 (blkLhsAt j k) = x1 (biasAt k) := by
    rw [shapeCast_self]
    exact broadcastTo_apply x1 broadcasts_S1x32_S10000x32 (blkLhsAt j k) (biasAt k) (fun a => match a with
      | ⟨0, _⟩ => by show 0 = if (1 : Nat) = 1 then 0 else _; rw [if_pos rfl]
      | ⟨1, _⟩ => by show k.val = if (32 : Nat) = 1 then 0 else k.val; rw [if_neg (by decide)])
  show max (shapeCast S10000x32 x0 shapeCasts_S10000x32_S10000x32 (blkLhsAt j k) + broadcastTo S10000x32 (shapeCast S1x32 x1 shapeCasts_S1x32_S1x32) broadcasts_S1x32_S10000x32 (blkLhsAt j k)) (Ideal.ofBits .f32 0x00000000#32) * x2 (blkRhsAt j k) = _
  rw [hb, shapeCast_self, Ideal.ofBits_zero_f32]

/-- Entry (row of the output index, k) of the aggregated features. -/
abbrev arrLhsAt (i : Cert.ReferenceIdeal.S50000x64.Idx) (k : Fin 32) : Cert.ReferenceIdeal.S50000x32.Idx := fun a => match a with
  | ⟨0, _⟩ => ⟨(i 0).val, (i 0).isLt⟩
  | ⟨1, _⟩ => ⟨k.val, k.isLt⟩
/-- Entry (k, column of the output index) of the weights, over the reference's shape. -/
abbrev arrRhsAt (i : Cert.ReferenceIdeal.S50000x64.Idx) (k : Fin 32) : Cert.ReferenceIdeal.S32x64.Idx := fun a => match a with
  | ⟨0, _⟩ => ⟨k.val, k.isLt⟩
  | ⟨1, _⟩ => ⟨(i 1).val, (i 1).isLt⟩
/-- Entry (0, k) of the bias row, over the reference's shape. -/
abbrev arrBiasAt (k : Fin 32) : Cert.ReferenceIdeal.S1x32.Idx := fun a => match a with
  | ⟨0, _⟩ => ⟨0, Nat.one_pos⟩
  | ⟨1, _⟩ => ⟨k.val, k.isLt⟩

theorem arrdot_lhs_0 (i : Cert.ReferenceIdeal.S50000x64.Idx) (q : Cert.ReferenceIdeal.dot_S50000x32_S32x64_S50000x64_1_0_0_1_n_n.contr.Idx) :
    (Cert.ReferenceIdeal.dot_S50000x32_S32x64_S50000x64_1_0_0_1_n_n.lhsIdx i q 0).val = (i 0).val := by
  unfold DotDims.lhsIdx
  rw [dif_neg (show ¬(0 : Fin Cert.ReferenceIdeal.S50000x32.rank) ∈ Cert.ReferenceIdeal.dot_S50000x32_S32x64_S50000x64_1_0_0_1_n_n.lhsBatch by decide), dif_pos (show (0 : Fin Cert.ReferenceIdeal.S50000x32.rank) ∈ Cert.ReferenceIdeal.dot_S50000x32_S32x64_S50000x64_1_0_0_1_n_n.lhsNonContracting by decide)]
  rfl
theorem arrdot_lhs_1 (i : Cert.ReferenceIdeal.S50000x64.Idx) (q : Cert.ReferenceIdeal.dot_S50000x32_S32x64_S50000x64_1_0_0_1_n_n.contr.Idx) :
    (Cert.ReferenceIdeal.dot_S50000x32_S32x64_S50000x64_1_0_0_1_n_n.lhsIdx i q 1).val = (q ⟨0, by decide⟩).val :=
  Cert.ReferenceIdeal.dot_S50000x32_S32x64_S50000x64_1_0_0_1_n_n.lhsIdx_val_of_single rfl i q
theorem arrdot_rhs_0 (i : Cert.ReferenceIdeal.S50000x64.Idx) (q : Cert.ReferenceIdeal.dot_S50000x32_S32x64_S50000x64_1_0_0_1_n_n.contr.Idx) :
    (Cert.ReferenceIdeal.dot_S50000x32_S32x64_S50000x64_1_0_0_1_n_n.rhsIdx i q 0).val = (q ⟨0, by decide⟩).val :=
  Cert.ReferenceIdeal.dot_S50000x32_S32x64_S50000x64_1_0_0_1_n_n.rhsIdx_val_of_single rfl i q
theorem arrdot_rhs_1 (i : Cert.ReferenceIdeal.S50000x64.Idx) (q : Cert.ReferenceIdeal.dot_S50000x32_S32x64_S50000x64_1_0_0_1_n_n.contr.Idx) :
    (Cert.ReferenceIdeal.dot_S50000x32_S32x64_S50000x64_1_0_0_1_n_n.rhsIdx i q 1).val = (i 1).val := by
  unfold DotDims.rhsIdx
  rw [dif_neg (show ¬(1 : Fin Cert.ReferenceIdeal.S32x64.rank) ∈ Cert.ReferenceIdeal.dot_S50000x32_S32x64_S50000x64_1_0_0_1_n_n.rhsBatch by decide), dif_pos (show (1 : Fin Cert.ReferenceIdeal.S32x64.rank) ∈ Cert.ReferenceIdeal.dot_S50000x32_S32x64_S50000x64_1_0_0_1_n_n.rhsNonContracting by decide)]
  rfl

/-- The reference's stretch for this layer as one term of the three arrays: relu of the features plus the bias row, times the weights. -/
abbrev refLayer (A : (⟨Cert.ReferenceIdeal.S50000x32, .f32⟩ : BufTy).Contents (Elt Ideal)) (B : (⟨Cert.ReferenceIdeal.S1x32, .f32⟩ : BufTy).Contents (Elt Ideal))
    (W : (⟨Cert.ReferenceIdeal.S32x64, .f32⟩ : BufTy).Contents (Elt Ideal)) : (⟨Cert.ReferenceIdeal.S50000x64, .f32⟩ : BufTy).Contents (Elt Ideal) :=
  Host.dotGeneral (F := Ideal) (φ₁ := .f32) (φ₂ := .f32) Cert.ReferenceIdeal.dot_S50000x32_S32x64_S50000x64_1_0_0_1_n_n none
    (maximumf (addf A (broadcastInDim Cert.ReferenceIdeal.S50000x32 ![0, 1] Cert.ReferenceIdeal.Facts₀.bcast_S1x32_S50000x32_0_1 B))
      (broadcastInDim Cert.ReferenceIdeal.S50000x32 ![] Cert.ReferenceIdeal.Facts₀.bcast_S_S50000x32 (constant (F := Ideal) Cert.ReferenceIdeal.S_ .f32 0x00000000#32)))
    W

/-- Element (r, c) of the reference's layer: the sum over k of relu(features[r,k] + bias[0,k]) times weights[k,c]. -/
theorem refLayer_apply (A : (⟨Cert.ReferenceIdeal.S50000x32, .f32⟩ : BufTy).Contents (Elt Ideal)) (B : (⟨Cert.ReferenceIdeal.S1x32, .f32⟩ : BufTy).Contents (Elt Ideal))
    (W : (⟨Cert.ReferenceIdeal.S32x64, .f32⟩ : BufTy).Contents (Elt Ideal)) (i : Cert.ReferenceIdeal.S50000x64.Idx) :
    refLayer A B W i = ∑ k : Fin 32, max (A (arrLhsAt i k) + B (arrBiasAt k)) 0 * W (arrRhsAt i k) := by
  unfold refLayer
  simp only [Host.dotGeneral]
  rw [Ideal.dotGeneral_apply, ← Equiv.sum_comp (ValueIdx.contrEquiv1 Cert.ReferenceIdeal.dot_S50000x32_S32x64_S50000x64_1_0_0_1_n_n 32 rfl rfl).symm]
  refine Finset.sum_congr rfl fun k _ => ?_
  have hk := ValueIdx.contrEquiv1_symm_val Cert.ReferenceIdeal.dot_S50000x32_S32x64_S50000x64_1_0_0_1_n_n 32 rfl rfl k
  have el : Cert.ReferenceIdeal.dot_S50000x32_S32x64_S50000x64_1_0_0_1_n_n.lhsIdx i ((ValueIdx.contrEquiv1 Cert.ReferenceIdeal.dot_S50000x32_S32x64_S50000x64_1_0_0_1_n_n 32 rfl rfl).symm k) = arrLhsAt i k := funext fun a => Fin.ext (by
    match a with
    | ⟨0, _⟩ => exact arrdot_lhs_0 _ _
    | ⟨1, _⟩ => exact (arrdot_lhs_1 _ _).trans hk)
  have er : Cert.ReferenceIdeal.dot_S50000x32_S32x64_S50000x64_1_0_0_1_n_n.rhsIdx i ((ValueIdx.contrEquiv1 Cert.ReferenceIdeal.dot_S50000x32_S32x64_S50000x64_1_0_0_1_n_n 32 rfl rfl).symm k) = arrRhsAt i k := funext fun a => Fin.ext (by
    match a with
    | ⟨0, _⟩ => exact (arrdot_rhs_0 _ _).trans hk
    | ⟨1, _⟩ => exact arrdot_rhs_1 _ _)
  rw [el, er]
  have hb : broadcastInDim Cert.ReferenceIdeal.S50000x32 ![0, 1] Cert.ReferenceIdeal.Facts₀.bcast_S1x32_S50000x32_0_1 B (arrLhsAt i k) = B (arrBiasAt k) :=
    broadcastInDim_apply _ Cert.ReferenceIdeal.Facts₀.bcast_S1x32_S50000x32_0_1 B (arrLhsAt i k) (arrBiasAt k) (fun a => match a with
      | ⟨0, _⟩ => by show 0 = if (1 : Nat) = 1 then 0 else _; rw [if_pos rfl]
      | ⟨1, _⟩ => by show k.val = if (32 : Nat) = 1 then 0 else k.val; rw [if_neg (by decide)])
  have hzero : broadcastInDim Cert.ReferenceIdeal.S50000x32 ![] Cert.ReferenceIdeal.Facts₀.bcast_S_S50000x32 (constant (F := Ideal) Cert.ReferenceIdeal.S_ .f32 0x00000000#32) (arrLhsAt i k) = 0 :=
    (broadcastInDim_apply _ Cert.ReferenceIdeal.Facts₀.bcast_S_S50000x32 (constant (F := Ideal) Cert.ReferenceIdeal.S_ .f32 0x00000000#32) (arrLhsAt i k) ValueIdx.ix0 (fun a => a.elim0)).trans Ideal.ofBits_zero_f32
  show max (A (arrLhsAt i k) + broadcastInDim Cert.ReferenceIdeal.S50000x32 ![0, 1] Cert.ReferenceIdeal.Facts₀.bcast_S1x32_S50000x32_0_1 B (arrLhsAt i k))
      (broadcastInDim Cert.ReferenceIdeal.S50000x32 ![] Cert.ReferenceIdeal.Facts₀.bcast_S_S50000x32 (constant (F := Ideal) Cert.ReferenceIdeal.S_ .f32 0x00000000#32) (arrLhsAt i k)) * W (arrRhsAt i k) = _
  rw [hb, hzero]

/-- A block element against an array element: where the three operands agree entry by entry along the contraction, the body's payload at the block
    index is the reference's layer at the array index. -/
theorem block_point (x0 : Vec Ideal S10000x32 .f32) (x1 : Vec Ideal S1x32 .f32) (x2 : Vec Ideal S32x64 .f32)
    (A : (⟨Cert.ReferenceIdeal.S50000x32, .f32⟩ : BufTy).Contents (Elt Ideal)) (B : (⟨Cert.ReferenceIdeal.S1x32, .f32⟩ : BufTy).Contents (Elt Ideal))
    (W : (⟨Cert.ReferenceIdeal.S32x64, .f32⟩ : BufTy).Contents (Elt Ideal)) (j : S10000x64.Idx) (i : Cert.ReferenceIdeal.S50000x64.Idx)
    (h0 : ∀ k : Fin 32, x0 (blkLhsAt j k) = A (arrLhsAt i k))
    (h1 : ∀ k : Fin 32, x1 (biasAt k) = B (arrBiasAt k))
    (h2 : ∀ k : Fin 32, x2 (blkRhsAt j k) = W (arrRhsAt i k)) :
    k1_pay1 (F := Ideal) x0 x1 x2 j = refLayer A B W i := by
  rw [pay_apply, refLayer_apply]
  exact Finset.sum_congr rfl fun k _ => by rw [h0 k, h1 k, h2 k]

/-- The printed index maps, decided over the grid: the features' and the output's row block is the point's number, every other block index is zero. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the reference's layer of the arrays as the region finds them. -/
theorem flushed_block (c : Dev nD) (t : Fin cfg1.N) :
    (dat1 (F := Ideal) V c).flushed 3 t = ((cfg1.win 3).blk t).view.read (Elt Ideal) (refLayer (V c main_v43) (V c main_v44) (V c main_arg5)) := by
  show (cfg1.win 3).cut (grid1.coords t) ((dat1 (F := Ideal) V c).after 3 t) = _
  rw [after1_3]
  unfold out1_3
  rw [View.canon_unit_zero zero_offsets]
  simp only [View.ld_unit_zero (S := S10000x32) zero_offsets, View.ld_unit_zero (S := S1x32) zero_offsets, View.ld_unit_zero (S := S32x64) zero_offsets]
  obtain ⟨e00, e01, e10, e11, e20, e21, e30, e31⟩ := block_indices t
  funext j
  show k1_pay1 (F := Ideal) (iblk1 V c 0 t) (iblk1 V c 1 t) (iblk1 V c 2 t) j
      = refLayer (V c main_v43) (V c main_v44) (V c main_arg5) (((cfg1.win 3).blk t).view.emb j)
  refine block_point (iblk1 V c 0 t) (iblk1 V c 1 t) (iblk1 V c 2 t) (V c main_v43) (V c main_v44) (V c main_arg5) j (((cfg1.win 3).blk t).view.emb j) ?_ ?_ ?_
  · intro k
    show V c main_v43 (((cfg1.win 0).blk t).view.emb (blkLhsAt j k)) = V c main_v43 (arrLhsAt (((cfg1.win 3).blk t).view.emb j) k)
    refine congrArg _ (funext fun a => Fin.ext ?_)
    match a with
    | ⟨0, _⟩ => show win1_0.index t (0 : Fin 2) * 10000 + 1 * (j 0).val = win1_3.index t (0 : Fin 2) * 10000 + 1 * (j 0).val; rw [e00, e30]
    | ⟨1, _⟩ => show win1_0.index t (1 : Fin 2) * 32 + 1 * k.val = k.val; rw [e01]; omega
  · intro k
    show V c main_v44 (((cfg1.win 1).blk t).view.emb (biasAt k)) = V c main_v44 (arrBiasAt k)
    refine congrArg _ (funext fun a => Fin.ext ?_)
    match a with
    | ⟨0, _⟩ => show win1_1.index t (0 : Fin 2) * 1 + 1 * 0 = 0; rw [e10]
    | ⟨1, _⟩ => show win1_1.index t (1 : Fin 2) * 32 + 1 * k.val = k.val; rw [e11]; omega
  · intro k
    show V c main_arg5 (((cfg1.win 2).blk t).view.emb (blkRhsAt j k)) = V c main_arg5 (arrRhsAt (((cfg1.win 3).blk t).view.emb j) k)
    refine congrArg _ (funext fun a => Fin.ext ?_)
    match a with
    | ⟨0, _⟩ => show win1_2.index t (0 : Fin 2) * 32 + 1 * k.val = k.val; rw [e20]; omega
    | ⟨1, _⟩ => show win1_2.index t (1 : Fin 2) * 64 + 1 * (j 1).val = win1_3.index t (1 : Fin 2) * 64 + 1 * (j 1).val; rw [e21, e31]

/-- An index of the output array is in point `t`'s block iff each coordinate is in the block's range on its axis. -/
theorem mem_block (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- The five row blocks tile the array: row r is in the block of the point numbered r / 10000, and every point writes back. -/
theorem rows_covered (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 5 := N_1
  have ht : (i 0).val / 10000 < cfg1.N := by rw [hN]; omega
  obtain ⟨-, -, -, -, -, -, e30, e31⟩ := block_indices ⟨(i 0).val / 10000, ht⟩
  refine ⟨⟨(i 0).val / 10000, ht⟩, flush1_3 _, ?_⟩
  rw [mem_block]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e30]
    show (i 0).val / 10000 * 10000 ≤ (i 0).val ∧ (i 0).val < (i 0).val / 10000 * 10000 + 10000
    omega
  | ⟨1, _⟩ =>
    show win1_3.index ⟨(i 0).val / 10000, ht⟩ (1 : Fin 2) * 64 ≤ (i 1).val ∧ (i 1).val < win1_3.index ⟨(i 0).val / 10000, ht⟩ (1 : Fin 2) * 64 + 64
    rw [e31]
    omega

end Region1

open Region1 in
theorem region1_value (c : Dev nD) :
    (dat1 (F := Ideal) V c).arrAt 3 cfg1.N
      = Host.dotGeneral (F := Ideal) (φ₁ := .f32) (φ₂ := .f32) Cert.ReferenceIdeal.dot_S50000x32_S32x64_S50000x64_1_0_0_1_n_n none
          (maximumf (addf (V c main_v43 : (⟨Cert.ReferenceIdeal.S50000x32, .f32⟩ : BufTy).Contents (Elt Ideal)) (broadcastInDim Cert.ReferenceIdeal.S50000x32 ![0, 1] Cert.ReferenceIdeal.Facts₀.bcast_S1x32_S50000x32_0_1 (V c main_v44)))
            (broadcastInDim Cert.ReferenceIdeal.S50000x32 ![] Cert.ReferenceIdeal.Facts₀.bcast_S_S50000x32 (constant (F := Ideal) Cert.ReferenceIdeal.S_ .f32 0x00000000#32)))
          (V c main_arg5 : (⟨Cert.ReferenceIdeal.S32x64, .f32⟩ : BufTy).Contents (Elt Ideal)) :=
  (dat1 (F := Ideal) V c).arrAt_eq_of_cover 3 (refLayer (V c main_v43) (V c main_v44) (V c main_arg5))
    (fun t _ => flushed_block V c t) rows_covered

end Cert.KernelIdeal.RegionValue

end
-- ==== Proof.Region2.lean ====
import proofs.«420813_j4252017623589_2_alg».proof.Proof.Gen.KernelIdeal.Frame
import proofs.«420813_j4252017623589_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-! Region 2 is the fused bias + relu + matmul layer at widths 64 → 128 over five row blocks of 10000 rows. Element (r, c) of the output array
    is the sum over k of max(features[r,k] + bias[0,k], 0) * weights[k,c]: the body's payload says so of each block entry (the format changes are
    the identity on the extended reals and the accumulator is zero), the reference's dot_general of the relu of the biased features says so of
    each array entry, each block entry is the array entry at row 10000 * t + (row inside the block), and the five blocks tile the array. -/

namespace Region2

theorem zero_offsets : (![0, 0] : Fin 2 → Nat) = fun _ => 0 := funext fun a => by fin_cases a <;> rfl

/-- Entry (row of the output index, k) of the left block. -/
abbrev blkLhsAt (j : S10000x128.Idx) (k : Fin 64) : S10000x64.Idx := fun a => match a with
  | ⟨0, _⟩ => ⟨(j 0).val, (j 0).isLt⟩
  | ⟨1, _⟩ => ⟨k.val, k.isLt⟩
/-- Entry (k, column of the output index) of the weights. -/
abbrev blkRhsAt (j : S10000x128.Idx) (k : Fin 64) : S64x128.Idx := fun a => match a with
  | ⟨0, _⟩ => ⟨k.val, k.isLt⟩
  | ⟨1, _⟩ => ⟨(j 1).val, (j 1).isLt⟩
/-- Entry (0, k) of the bias row. -/
abbrev biasAt (k : Fin 64) : S1x64.Idx := fun a => match a with
  | ⟨0, _⟩ => ⟨0, Nat.one_pos⟩
  | ⟨1, _⟩ => ⟨k.val, k.isLt⟩

theorem blkdot_lhs_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem blkdot_lhs_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem blkdot_rhs_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem blkdot_rhs_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- Entry (r, c) of the body's payload: the sum over k of relu(left[r,k] + bias[0,k]) times weights[k,c]; the format changes are the identity on the
    extended reals and the accumulator is the zero splat. -/
theorem pay_apply (x0 : Vec Ideal S10000x64 .f32) (x1 : Vec Ideal S1x64 .f32) (x2 : Vec Ideal S64x128 .f32) (j : S10000x128.Idx) :
    k2_pay1 (F := Ideal) x0 x1 x2 j = ∑ k : Fin 64, max (x0 (blkLhsAt j k) + x1 (biasAt k)) 0 * x2 (blkRhsAt j k) := by
  unfold k2_pay1
  refine (Ideal.matmul_constant_zero_apply dot_S10000x64_S64x128_S10000x128_1_0_0_1_n_n none _ _ j).trans ?_
  rw [← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx j ((ValueIdx.contrEquiv1 dot_S10000x64_S64x128_S10000x128_1_0_0_1_n_n 64 rfl rfl).symm k) = blkLhsAt j k := funext fun a => Fin.ext (by
    match a with
    | ⟨0, _⟩ => exact blkdot_lhs_0 _ _
    | ⟨1, _⟩ => exact (blkdot_lhs_1 _ _).trans hk)
  have er : dot_S10000x64_S64x128_S10000x128_1_0_0_1_n_n.rhsIdx j ((ValueIdx.contrEquiv1 dot_S10000x64_S64x128_S10000x128_1_0_0_1_n_n 64 rfl rfl).symm k) = blkRhsAt j k := funext fun a => Fin.ext (by
    match a with
    | ⟨0, _⟩ => exact (blkdot_rhs_0 _ _).trans hk
    | ⟨1, _⟩ => exact blkdot_rhs_1 _ _)
  rw [el, er]
  have hb : broadcastTo S10000x64 (shapeCast S1x64 x1 shapeCasts_S1x64_S1x64) broadcasts_S1x64_S10000x64 (blkLhsAt j k) = x1 (biasAt k) := by
    rw [shapeCast_self]
    exact broadcastTo_apply x1 broadcasts_S1x64_S10000x64 (blkLhsAt j k) (biasAt k) (fun a => match a with
      | ⟨0, _⟩ => by show 0 = if (1 : Nat) = 1 then 0 else _; rw [if_pos rfl]
      | ⟨1, _⟩ => by show k.val = if (64 : Nat) = 1 then 0 else k.val; rw [if_neg (by decide)])
  show max (shapeCast S10000x64 x0 shapeCasts_S10000x64_S10000x64 (blkLhsAt j k) + broadcastTo S10000x64 (shapeCast S1x64 x1 shapeCasts_S1x64_S1x64) broadcasts_S1x64_S10000x64 (blkLhsAt j k)) (Ideal.ofBits .f32 0x00000000#32) * x2 (blkRhsAt j k) = _
  rw [hb, shapeCast_self, Ideal.ofBits_zero_f32]

/-- Entry (row of the output index, k) of the aggregated features. -/
abbrev arrLhsAt (i : Cert.ReferenceIdeal.S50000x128.Idx) (k : Fin 64) : Cert.ReferenceIdeal.S50000x64.Idx := fun a => match a with
  | ⟨0, _⟩ => ⟨(i 0).val, (i 0).isLt⟩
  | ⟨1, _⟩ => ⟨k.val, k.isLt⟩
/-- Entry (k, column of the output index) of the weights, over the reference's shape. -/
abbrev arrRhsAt (i : Cert.ReferenceIdeal.S50000x128.Idx) (k : Fin 64) : Cert.ReferenceIdeal.S64x128.Idx := fun a => match a with
  | ⟨0, _⟩ => ⟨k.val, k.isLt⟩
  | ⟨1, _⟩ => ⟨(i 1).val, (i 1).isLt⟩
/-- Entry (0, k) of the bias row, over the reference's shape. -/
abbrev arrBiasAt (k : Fin 64) : Cert.ReferenceIdeal.S1x64.Idx := fun a => match a with
  | ⟨0, _⟩ => ⟨0, Nat.one_pos⟩
  | ⟨1, _⟩ => ⟨k.val, k.isLt⟩

theorem arrdot_lhs_0 (i : Cert.ReferenceIdeal.S50000x128.Idx) (q : Cert.ReferenceIdeal.dot_S50000x64_S64x128_S50000x128_1_0_0_1_n_n.contr.Idx) :
    (Cert.ReferenceIdeal.dot_S50000x64_S64x128_S50000x128_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x128_S50000x128_1_0_0_1_n_n.lhsBatch by decide), dif_pos (show (0 : Fin Cert.ReferenceIdeal.S50000x64.rank) ∈ Cert.ReferenceIdeal.dot_S50000x64_S64x128_S50000x128_1_0_0_1_n_n.lhsNonContracting by decide)]
  rfl
theorem arrdot_lhs_1 (i : Cert.ReferenceIdeal.S50000x128.Idx) (q : Cert.ReferenceIdeal.dot_S50000x64_S64x128_S50000x128_1_0_0_1_n_n.contr.Idx) :
    (Cert.ReferenceIdeal.dot_S50000x64_S64x128_S50000x128_1_0_0_1_n_n.lhsIdx i q 1).val = (q ⟨0, by decide⟩).val :=
  Cert.ReferenceIdeal.dot_S50000x64_S64x128_S50000x128_1_0_0_1_n_n.lhsIdx_val_of_single rfl i q
theorem arrdot_rhs_0 (i : Cert.ReferenceIdeal.S50000x128.Idx) (q : Cert.ReferenceIdeal.dot_S50000x64_S64x128_S50000x128_1_0_0_1_n_n.contr.Idx) :
    (Cert.ReferenceIdeal.dot_S50000x64_S64x128_S50000x128_1_0_0_1_n_n.rhsIdx i q 0).val = (q ⟨0, by decide⟩).val :=
  Cert.ReferenceIdeal.dot_S50000x64_S64x128_S50000x128_1_0_0_1_n_n.rhsIdx_val_of_single rfl i q
theorem arrdot_rhs_1 (i : Cert.ReferenceIdeal.S50000x128.Idx) (q : Cert.ReferenceIdeal.dot_S50000x64_S64x128_S50000x128_1_0_0_1_n_n.contr.Idx) :
    (Cert.ReferenceIdeal.dot_S50000x64_S64x128_S50000x128_1_0_0_1_n_n.rhsIdx i q 1).val = (i 1).val := by
  unfold DotDims.rhsIdx
  rw [dif_neg (show ¬(1 : Fin Cert.ReferenceIdeal.S64x128.rank) ∈ Cert.ReferenceIdeal.dot_S50000x64_S64x128_S50000x128_1_0_0_1_n_n.rhsBatch by decide), dif_pos (show (1 : Fin Cert.ReferenceIdeal.S64x128.rank) ∈ Cert.ReferenceIdeal.dot_S50000x64_S64x128_S50000x128_1_0_0_1_n_n.rhsNonContracting by decide)]
  rfl

/-- The reference's stretch for this layer as one term of the three arrays: relu of the features plus the bias row, times the weights. -/
abbrev refLayer (A : (⟨Cert.ReferenceIdeal.S50000x64, .f32⟩ : BufTy).Contents (Elt Ideal)) (B : (⟨Cert.ReferenceIdeal.S1x64, .f32⟩ : BufTy).Contents (Elt Ideal))
    (W : (⟨Cert.ReferenceIdeal.S64x128, .f32⟩ : BufTy).Contents (Elt Ideal)) : (⟨Cert.ReferenceIdeal.S50000x128, .f32⟩ : BufTy).Contents (Elt Ideal) :=
  Host.dotGeneral (F := Ideal) (φ₁ := .f32) (φ₂ := .f32) Cert.ReferenceIdeal.dot_S50000x64_S64x128_S50000x128_1_0_0_1_n_n none
    (maximumf (addf A (broadcastInDim Cert.ReferenceIdeal.S50000x64 ![0, 1] Cert.ReferenceIdeal.Facts₀.bcast_S1x64_S50000x64_0_1 B))
      (broadcastInDim Cert.ReferenceIdeal.S50000x64 ![] Cert.ReferenceIdeal.Facts₀.bcast_S_S50000x64 (constant (F := Ideal) Cert.ReferenceIdeal.S_ .f32 0x00000000#32)))
    W

/-- Element (r, c) of the reference's layer: the sum over k of relu(features[r,k] + bias[0,k]) times weights[k,c]. -/
theorem refLayer_apply (A : (⟨Cert.ReferenceIdeal.S50000x64, .f32⟩ : BufTy).Contents (Elt Ideal)) (B : (⟨Cert.ReferenceIdeal.S1x64, .f32⟩ : BufTy).Contents (Elt Ideal))
    (W : (⟨Cert.ReferenceIdeal.S64x128, .f32⟩ : BufTy).Contents (Elt Ideal)) (i : Cert.ReferenceIdeal.S50000x128.Idx) :
    refLayer A B W i = ∑ k : Fin 64, max (A (arrLhsAt i k) + B (arrBiasAt k)) 0 * W (arrRhsAt i k) := by
  unfold refLayer
  simp only [Host.dotGeneral]
  rw [Ideal.dotGeneral_apply, ← Equiv.sum_comp (ValueIdx.contrEquiv1 Cert.ReferenceIdeal.dot_S50000x64_S64x128_S50000x128_1_0_0_1_n_n 64 rfl rfl).symm]
  refine Finset.sum_congr rfl fun k _ => ?_
  have hk := ValueIdx.contrEquiv1_symm_val Cert.ReferenceIdeal.dot_S50000x64_S64x128_S50000x128_1_0_0_1_n_n 64 rfl rfl k
  have el : Cert.ReferenceIdeal.dot_S50000x64_S64x128_S50000x128_1_0_0_1_n_n.lhsIdx i ((ValueIdx.contrEquiv1 Cert.ReferenceIdeal.dot_S50000x64_S64x128_S50000x128_1_0_0_1_n_n 64 rfl rfl).symm k) = arrLhsAt i k := funext fun a => Fin.ext (by
    match a with
    | ⟨0, _⟩ => exact arrdot_lhs_0 _ _
    | ⟨1, _⟩ => exact (arrdot_lhs_1 _ _).trans hk)
  have er : Cert.ReferenceIdeal.dot_S50000x64_S64x128_S50000x128_1_0_0_1_n_n.rhsIdx i ((ValueIdx.contrEquiv1 Cert.ReferenceIdeal.dot_S50000x64_S64x128_S50000x128_1_0_0_1_n_n 64 rfl rfl).symm k) = arrRhsAt i k := funext fun a => Fin.ext (by
    match a with
    | ⟨0, _⟩ => exact (arrdot_rhs_0 _ _).trans hk
    | ⟨1, _⟩ => exact arrdot_rhs_1 _ _)
  rw [el, er]
  have hb : broadcastInDim Cert.ReferenceIdeal.S50000x64 ![0, 1] Cert.ReferenceIdeal.Facts₀.bcast_S1x64_S50000x64_0_1 B (arrLhsAt i k) = B (arrBiasAt k) :=
    broadcastInDim_apply _ Cert.ReferenceIdeal.Facts₀.bcast_S1x64_S50000x64_0_1 B (arrLhsAt i k) (arrBiasAt k) (fun a => match a with
      | ⟨0, _⟩ => by show 0 = if (1 : Nat) = 1 then 0 else _; rw [if_pos rfl]
      | ⟨1, _⟩ => by show k.val = if (64 : Nat) = 1 then 0 else k.val; rw [if_neg (by decide)])
  have hzero : broadcastInDim Cert.ReferenceIdeal.S50000x64 ![] Cert.ReferenceIdeal.Facts₀.bcast_S_S50000x64 (constant (F := Ideal) Cert.ReferenceIdeal.S_ .f32 0x00000000#32) (arrLhsAt i k) = 0 :=
    (broadcastInDim_apply _ Cert.ReferenceIdeal.Facts₀.bcast_S_S50000x64 (constant (F := Ideal) Cert.ReferenceIdeal.S_ .f32 0x00000000#32) (arrLhsAt i k) ValueIdx.ix0 (fun a => a.elim0)).trans Ideal.ofBits_zero_f32
  show max (A (arrLhsAt i k) + broadcastInDim Cert.ReferenceIdeal.S50000x64 ![0, 1] Cert.ReferenceIdeal.Facts₀.bcast_S1x64_S50000x64_0_1 B (arrLhsAt i k))
      (broadcastInDim Cert.ReferenceIdeal.S50000x64 ![] Cert.ReferenceIdeal.Facts₀.bcast_S_S50000x64 (constant (F := Ideal) Cert.ReferenceIdeal.S_ .f32 0x00000000#32) (arrLhsAt i k)) * W (arrRhsAt i k) = _
  rw [hb, hzero]

/-- A block element against an array element: where the three operands agree entry by entry along the contraction, the body's payload at the block
    index is the reference's layer at the array index. -/
theorem block_point (x0 : Vec Ideal S10000x64 .f32) (x1 : Vec Ideal S1x64 .f32) (x2 : Vec Ideal S64x128 .f32)
    (A : (⟨Cert.ReferenceIdeal.S50000x64, .f32⟩ : BufTy).Contents (Elt Ideal)) (B : (⟨Cert.ReferenceIdeal.S1x64, .f32⟩ : BufTy).Contents (Elt Ideal))
    (W : (⟨Cert.ReferenceIdeal.S64x128, .f32⟩ : BufTy).Contents (Elt Ideal)) (j : S10000x128.Idx) (i : Cert.ReferenceIdeal.S50000x128.Idx)
    (h0 : ∀ k : Fin 64, x0 (blkLhsAt j k) = A (arrLhsAt i k))
    (h1 : ∀ k : Fin 64, x1 (biasAt k) = B (arrBiasAt k))
    (h2 : ∀ k : Fin 64, x2 (blkRhsAt j k) = W (arrRhsAt i k)) :
    k2_pay1 (F := Ideal) x0 x1 x2 j = refLayer A B W i := by
  rw [pay_apply, refLayer_apply]
  exact Finset.sum_congr rfl fun k _ => by rw [h0 k, h1 k, h2 k]

/-- The printed index maps, decided over the grid: the features' and the output's row block is the point's number, every other block index is zero. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the reference's layer of the arrays as the region finds them. -/
theorem flushed_block (c : Dev nD) (t : Fin cfg2.N) :
    (dat2 (F := Ideal) V c).flushed 3 t = ((cfg2.win 3).blk t).view.read (Elt Ideal) (refLayer (V c main_v58) (V c main_v59) (V c main_arg7)) := by
  show (cfg2.win 3).cut (grid2.coords t) ((dat2 (F := Ideal) V c).after 3 t) = _
  rw [after2_3]
  unfold out2_3
  rw [View.canon_unit_zero zero_offsets]
  simp only [View.ld_unit_zero (S := S10000x64) zero_offsets, View.ld_unit_zero (S := S1x64) zero_offsets, View.ld_unit_zero (S := S64x128) zero_offsets]
  obtain ⟨e00, e01, e10, e11, e20, e21, e30, e31⟩ := block_indices t
  funext j
  show k2_pay1 (F := Ideal) (iblk2 V c 0 t) (iblk2 V c 1 t) (iblk2 V c 2 t) j
      = refLayer (V c main_v58) (V c main_v59) (V c main_arg7) (((cfg2.win 3).blk t).view.emb j)
  refine block_point (iblk2 V c 0 t) (iblk2 V c 1 t) (iblk2 V c 2 t) (V c main_v58) (V c main_v59) (V c main_arg7) j (((cfg2.win 3).blk t).view.emb j) ?_ ?_ ?_
  · intro k
    show V c main_v58 (((cfg2.win 0).blk t).view.emb (blkLhsAt j k)) = V c main_v58 (arrLhsAt (((cfg2.win 3).blk t).view.emb j) k)
    refine congrArg _ (funext fun a => Fin.ext ?_)
    match a with
    | ⟨0, _⟩ => show win2_0.index t (0 : Fin 2) * 10000 + 1 * (j 0).val = win2_3.index t (0 : Fin 2) * 10000 + 1 * (j 0).val; rw [e00, e30]
    | ⟨1, _⟩ => show win2_0.index t (1 : Fin 2) * 64 + 1 * k.val = k.val; rw [e01]; omega
  · intro k
    show V c main_v59 (((cfg2.win 1).blk t).view.emb (biasAt k)) = V c main_v59 (arrBiasAt k)
    refine congrArg _ (funext fun a => Fin.ext ?_)
    match a with
    | ⟨0, _⟩ => show win2_1.index t (0 : Fin 2) * 1 + 1 * 0 = 0; rw [e10]
    | ⟨1, _⟩ => show win2_1.index t (1 : Fin 2) * 64 + 1 * k.val = k.val; rw [e11]; omega
  · intro k
    show V c main_arg7 (((cfg2.win 2).blk t).view.emb (blkRhsAt j k)) = V c main_arg7 (arrRhsAt (((cfg2.win 3).blk t).view.emb j) k)
    refine congrArg _ (funext fun a => Fin.ext ?_)
    match a with
    | ⟨0, _⟩ => show win2_2.index t (0 : Fin 2) * 64 + 1 * k.val = k.val; rw [e20]; omega
    | ⟨1, _⟩ => show win2_2.index t (1 : Fin 2) * 128 + 1 * (j 1).val = win2_3.index t (1 : Fin 2) * 128 + 1 * (j 1).val; rw [e21, e31]

/-- An index of the output array is in point `t`'s block iff each coordinate is in the block's range on its axis. -/
theorem mem_block (t : Fin cfg2.N) (i : S50000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v60).slice (win2_3.rect t)).set ↔ _
  rw [View.set_slice_whole, Rect.mem_set_unit]
  exact Iff.rfl

/-- The five row blocks tile the array: row r is in the block of the point numbered r / 10000, and every point writes back. -/
theorem rows_covered (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 5 := N_2
  have ht : (i 0).val / 10000 < cfg2.N := by rw [hN]; omega
  obtain ⟨-, -, -, -, -, -, e30, e31⟩ := block_indices ⟨(i 0).val / 10000, ht⟩
  refine ⟨⟨(i 0).val / 10000, ht⟩, flush2_3 _, ?_⟩
  rw [mem_block]
  intro a
  match a with
  | ⟨0, _⟩ =>
    show win2_3.index ⟨(i 0).val / 10000, ht⟩ (0 : Fin 2) * 10000 ≤ (i 0).val ∧ (i 0).val < win2_3.index ⟨(i 0).val / 10000, ht⟩ (0 : Fin 2) * 10000 + 10000
    rw [e30]
    show (i 0).val / 10000 * 10000 ≤ (i 0).val ∧ (i 0).val < (i 0).val / 10000 * 10000 + 10000
    omega
  | ⟨1, _⟩ =>
    show win2_3.index ⟨(i 0).val / 10000, ht⟩ (1 : Fin 2) * 128 ≤ (i 1).val ∧ (i 1).val < win2_3.index ⟨(i 0).val / 10000, ht⟩ (1 : Fin 2) * 128 + 128
    rw [e31]
    omega

end Region2

open Region2 in
theorem region2_value (c : Dev nD) :
    (dat2 (F := Ideal) V c).arrAt 3 cfg2.N
      = Host.dotGeneral (F := Ideal) (φ₁ := .f32) (φ₂ := .f32) Cert.ReferenceIdeal.dot_S50000x64_S64x128_S50000x128_1_0_0_1_n_n none
          (maximumf (addf (V c main_v58 : (⟨Cert.ReferenceIdeal.S50000x64, .f32⟩ : BufTy).Contents (Elt Ideal)) (broadcastInDim Cert.ReferenceIdeal.S50000x64 ![0, 1] Cert.ReferenceIdeal.Facts₀.bcast_S1x64_S50000x64_0_1 (V c main_v59)))
            (broadcastInDim Cert.ReferenceIdeal.S50000x64 ![] Cert.ReferenceIdeal.Facts₀.bcast_S_S50000x64 (constant (F := Ideal) Cert.ReferenceIdeal.S_ .f32 0x00000000#32)))
          (V c main_arg7 : (⟨Cert.ReferenceIdeal.S64x128, .f32⟩ : BufTy).Contents (Elt Ideal)) :=
  (dat2 (F := Ideal) V c).arrAt_eq_of_cover 3 (refLayer (V c main_v58) (V c main_v59) (V c main_arg7))
    (fun t _ => flushed_block V c t) rows_covered

end Cert.KernelIdeal.RegionValue

end
-- ==== Proof.Region3.lean ====
import proofs.«420813_j4252017623589_2_alg».proof.Proof.Gen.KernelIdeal.Frame
import proofs.«420813_j4252017623589_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

open Idealize.ShloMosaic.ValueIdx

/-! # Region 3: the bias row added to every row of the aggregated features, then relu

The kernel runs over five points. At point `t` it loads rows `10000 t … 10000 t + 9999` of the features [50000,128]
and the whole bias row [1,128], and stores max (features + bias row broadcast along the rows, 0) into the same rows of
the output. The host writes the same value over the whole arrays. Both are pointwise: entry (i, j) is
max (features[i,j] + bias[0,j], 0) on either side, so each point's block is a block of the host's array, and the five
blocks cover the output. -/

namespace Region3

/-- The offsets of an access to a whole block are zero on both axes. -/
theorem zeroOffsets : (![0, 0] : Fin 2 → Nat) = fun _ => 0 := funext fun a => by fin_cases a <;> rfl

/-- Bias plus relu of a feature array `a` [50000,128] and a bias row `b` [1,128] as the host writes it: the maximum
    of `a` plus the row broadcast along the rows, and the zero constant broadcast to every entry. -/
abbrev biasRelu (a : Vec Ideal S50000x128 .f32) (b : Vec Ideal S1x128 .f32) : Vec Ideal S50000x128 .f32 :=
  maximumf (addf a (broadcastInDim Cert.ReferenceIdeal.S50000x128 ![0, 1] Cert.ReferenceIdeal.Facts₀.bcast_S1x128_S50000x128_0_1 b))
    (broadcastInDim Cert.ReferenceIdeal.S50000x128 ![] Cert.ReferenceIdeal.Facts₀.bcast_S_S50000x128 (constant (F := Ideal) Cert.ReferenceIdeal.S_ .f32 0x00000000#32))

/-- Entry `i` of the host's bias plus relu is max (a[i] + b[0, i₁]) 0: a broadcast along axes [0, 1] of a [1,128] row
    reads the row at coordinate 0 on its unit axis and at the entry's own column; a broadcast of a scalar reads the scalar. -/
theorem biasRelu_apply (a : Vec Ideal S50000x128 .f32) (b : Vec Ideal S1x128 .f32) (i : S50000x128.Idx) (k : S1x128.Idx)
    (hk0 : (k 0).val = 0) (hk1 : (k 1).val = (i 1).val) :
    biasRelu a b i = max (a i + b k) (Ideal.ofBits .f32 0x00000000#32) := by
  show max (a i + broadcastInDim Cert.ReferenceIdeal.S50000x128 ![0, 1] Cert.ReferenceIdeal.Facts₀.bcast_S1x128_S50000x128_0_1 b i)
      (broadcastInDim Cert.ReferenceIdeal.S50000x128 ![] Cert.ReferenceIdeal.Facts₀.bcast_S_S50000x128 (constant (F := Ideal) Cert.ReferenceIdeal.S_ .f32 0x00000000#32) i) = _
  rw [broadcastInDim_apply _ _ b i k (fun d => by
        match d with
        | ⟨0, _⟩ => exact hk0
        | ⟨1, _⟩ => exact hk1),
    broadcastInDim_apply _ _ (constant (F := Ideal) Cert.ReferenceIdeal.S_ .f32 0x00000000#32) i ix0 (fun d => d.elim0)]
  rfl

/-- Entry `j` of the block the kernel stores is max (x0[j] + x1[0, j₁]) 0: the two shape casts are to the same shape,
    the [1,128] row is broadcast along the rows, the zero is a splat. -/
theorem storedBlock_apply (x0 : Vec Ideal S10000x128 .f32) (x1 : Vec Ideal S1x128 .f32) (j : S10000x128.Idx) (k : S1x128.Idx)
    (hk0 : (k 0).val = 0) (hk1 : (k 1).val = (j 1).val) :
    k3_pay1 (F := Ideal) x0 x1 j = max (x0 j + x1 k) (Ideal.ofBits .f32 0x00000000#32) := by
  unfold k3_pay1
  show max (shapeCast S10000x128 x0 shapeCasts_S10000x128_S10000x128 j
      + broadcastTo S10000x128 (shapeCast S1x128 x1 shapeCasts_S1x128_S1x128) broadcasts_S1x128_S10000x128 j) (Ideal.ofBits .f32 0x00000000#32) = _
  rw [shapeCast_self, shapeCast_self, broadcastTo_apply x1 _ j k (fun d => by
        match d with
        | ⟨0, _⟩ => exact hk0
        | ⟨1, _⟩ => exact hk1)]

/-- The index maps over the five points: the feature window and the output window sit at row block `t`, column
    block 0; the bias window at block (0, 0). -/
theorem blockIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the host's bias plus relu of the two arrays as the region finds them:
    entry (p, q) of the feature block is the array's entry (10000 t + p, q), which is where the output block's entry
    (p, q) lands, and the bias block is the whole bias row. -/
theorem writeback_eq (c : Dev nD) (t : Fin cfg3.N) :
    (dat3 (F := Ideal) V c).flushed 2 t
      = ((cfg3.win 2).blk t).view.read (Elt Ideal) (biasRelu (V c main_v73) (V c main_v74)) := by
  show (cfg3.win 2).cut (grid3.coords t) ((dat3 V c).after 2 t) = _
  rw [after3_2]
  unfold out3_2
  rw [View.canon_unit_zero zeroOffsets]
  simp only [View.ld_unit_zero (S := S10000x128) zeroOffsets, View.ld_unit_zero (S := S1x128) zeroOffsets]
  obtain ⟨e0, e1, e2, e3, e4, e5⟩ := blockIndex t
  funext j
  have hj0 : (j 0).val < 10000 := (j 0).isLt
  have hj1 : (j 1).val < 128 := (j 1).isLt
  -- the bias row's entry under column `j₁`, and the column of the output entry the block's entry `j` lands on
  have hk1 : ((ix2 (0 : Fin 1) (⟨(j 1).val, hj1⟩ : Fin 128) : S1x128.Idx) 1).val = ((((cfg3.win 2).blk t).view.emb j) 1).val := by
    show (j 1).val = win3_2.index t (1 : Fin 2) * 128 + 1 * (j 1).val
    omega
  -- the feature block's entry `j` is the array's entry at the output block's entry `j`: the two windows move together
  have hagg : iblk3 V c 0 t j = V c main_v73 (((cfg3.win 2).blk t).view.emb j) := by
    show V c main_v73 (((cfg3.win 0).blk t).view.emb j) = V c main_v73 (((cfg3.win 2).blk t).view.emb j)
    refine congrArg (V c main_v73) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  -- the bias block is the bias row itself: its block index is (0, 0) at every point
  have hrow : iblk3 V c 1 t (ix2 (0 : Fin 1) (⟨(j 1).val, hj1⟩ : Fin 128)) = V c main_v74 (ix2 (0 : Fin 1) (⟨(j 1).val, hj1⟩ : Fin 128)) := by
    show V c main_v74 (((cfg3.win 1).blk t).view.emb (ix2 (0 : Fin 1) (⟨(j 1).val, hj1⟩ : Fin 128))) = _
    refine congrArg (V c main_v74) (funext fun a => Fin.ext ?_)
    match a with
    | ⟨0, _⟩ => show win3_1.index t (0 : Fin 2) * 1 + 1 * 0 = 0; omega
    | ⟨1, _⟩ => show win3_1.index t (1 : Fin 2) * 128 + 1 * (j 1).val = (j 1).val; omega
  show k3_pay1 (F := Ideal) (iblk3 V c 0 t) (iblk3 V c 1 t) j = biasRelu (V c main_v73) (V c main_v74) (((cfg3.win 2).blk t).view.emb j)
  refine (storedBlock_apply (iblk3 V c 0 t) (iblk3 V c 1 t) j (ix2 (0 : Fin 1) (⟨(j 1).val, hj1⟩ : Fin 128)) rfl rfl).trans ?_
  refine (congrArg₂ (fun (x y : Ideal .f32) => max (x + y) (Ideal.ofBits .f32 0x00000000#32)) hagg hrow).trans ?_
  exact (biasRelu_apply (V c main_v73) (V c main_v74) (((cfg3.win 2).blk t).view.emb j) (ix2 (0 : Fin 1) (⟨(j 1).val, hj1⟩ : Fin 128)) rfl hk1).symm

/-- An entry of the output array is in point `t`'s block iff each coordinate is in the block's range on its axis. -/
theorem mem_rowBlock (t : Fin cfg3.N) (i : S50000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v75).slice (win3_2.rect t)).set ↔ _
  rw [View.set_slice_whole, Rect.mem_set_unit]
  exact Iff.rfl

/-- Every entry of the output array is in some point's block: row `r` is in the block of point `r / 10000`. -/
theorem rows_covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 5 := N_3
  obtain ⟨t, ht⟩ : ∃ t : Fin cfg3.N, t.val = (i 0).val / 10000 := ⟨⟨(i 0).val / 10000, by rw [hN]; omega⟩, rfl⟩
  obtain ⟨-, -, -, -, e4, e5⟩ := blockIndex t
  refine ⟨t, flush3_2 t, ?_⟩
  rw [mem_rowBlock]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 128 ≤ (i 1).val ∧ (i 1).val < win3_2.index t (1 : Fin 2) * 128 + 128
    omega

end Region3

open Region3 in
/-- The output array after region 3 is the host's bias plus relu of the two arrays the region finds: every point writes
    back its block of that array, and the five blocks cover it. -/
theorem region3_value (c : Dev nD) :
    (dat3 (F := Ideal) V c).arrAt 2 cfg3.N
      = maximumf (addf (V c main_v73) (broadcastInDim Cert.ReferenceIdeal.S50000x128 ![0, 1] Cert.ReferenceIdeal.Facts₀.bcast_S1x128_S50000x128_0_1 (V c main_v74)))
          (broadcastInDim Cert.ReferenceIdeal.S50000x128 ![] Cert.ReferenceIdeal.Facts₀.bcast_S_S50000x128 (constant (F := Ideal) Cert.ReferenceIdeal.S_ .f32 0x00000000#32)) :=
  (dat3 (F := Ideal) V c).arrAt_eq_of_cover 2 (biasRelu (V c main_v73) (V c main_v74))
    (fun t _ => writeback_eq V c t) rows_covered

end Cert.KernelIdeal.RegionValue

end
-- ==== Proof.LibSegmentSum.lean ====
/-
  A row scatter-add read at an index. A `stablehlo.scatter` with an `add` body whose scatter indices are one column
  `[E, 1]` of row numbers, whose updates are `E` rows of width `D` and whose operand has `M` rows of width `D`
  (what `jax.ops.segment_sum` of a rank-2 array lowers to) adds update row `e` onto operand row `idx e`: the element
  `(r, k)` of the result is the operand's plus the sum, over the update rows `e` whose index is `r`, of the update's
  element `(e, k)`. An index outside `[0, M)` names no row and its update row is dropped. The column `k` plays no part
  in which rows land, so a scatter of a wide update array restricted to some columns is the scatter of those columns.
-/
import Idealize.ShloMosaic.PureOps.Ideal
import Idealize.ShloMosaic.PureOps.Contract
import Idealize.ShloMosaic.Lib.ValueIdx

noncomputable section

open scoped BigOperators

namespace Cert.LibSegmentSum

open Idealize.ShloMosaic Idealize.ShloMosaic.ValueIdx

/-- The dimension numbers of a row scatter: update axis 1 is the window (operand axis 1), operand axis 0 is the
    inserted one and the one the single index component names, the index vector lies along axis 1 of the indices. -/
abbrev rowScatterDims (M D E : Nat)
    (wf : ScatterDims.WF (⟨2, ![M, D]⟩ : Shape) (⟨2, ![E, 1]⟩ : Shape) (⟨2, ![E, D]⟩ : Shape) [1] [0] [0] 1) :
    ScatterDims (⟨2, ![M, D]⟩ : Shape) (⟨2, ![E, 1]⟩ : Shape) (⟨2, ![E, D]⟩ : Shape) where
  updateWindowDims := [1]
  insertedWindowDims := [0]
  scatterDimsToOperandDims := [0]
  indexVectorDim := 1
  wf := wf

/-- On operand axis 0 the window starts at row `e`'s index word, read signed. -/
private theorem start_zero {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) :
    (rowScatterDims M D E wf).start (ix2 e k') idx 0 = (idx (ix2 e (0 : Fin 1))).toInt := by
  unfold ScatterDims.start
  rw [dif_pos (show (0 : Fin 2) ∈ (rowScatterDims M D E wf).scatterDimsToOperandDims from List.mem_singleton.mpr rfl)]
  have hsi : (rowScatterDims M D E wf).siIdx (ix2 e k') ⟨List.idxOf (0 : Fin 2) (rowScatterDims M D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Operand axis 1 is not named by the index vector: the window starts at 0 there. -/
private theorem start_one {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (j : (⟨2, ![E, D]⟩ : Shape).Idx) :
    (rowScatterDims M D E wf).start j idx 1 = 0 := by
  unfold ScatterDims.start
  rw [dif_neg (show ¬ (1 : Fin 2) ∈ (rowScatterDims M D E wf).scatterDimsToOperandDims from (by decide : ¬ (1 : Fin 2) ∈ ([0] : List (Fin 2))))]

/-- Operand axis 0 is inserted: the window coordinate there is 0. -/
private theorem window_zero {M D E : Nat}
    (wf : ScatterDims.WF (⟨2, ![M, D]⟩ : Shape) (⟨2, ![E, 1]⟩ : Shape) (⟨2, ![E, D]⟩ : Shape) [1] [0] [0] 1)
    (j : (⟨2, ![E, D]⟩ : Shape).Idx) :
    (rowScatterDims M D E wf).window j 0 = 0 := by
  unfold ScatterDims.window
  rw [dif_neg (show ¬ (0 : Fin 2) ∈ (rowScatterDims M D E wf).sKept from (by decide : ¬ (0 : Fin 2) ∈ (List.finRange 2).filter (· ∉ [(0 : Fin 2)])))]

/-- On operand axis 1 the window coordinate is the update's column. -/
private theorem window_one {M D E : Nat}
    (wf : ScatterDims.WF (⟨2, ![M, D]⟩ : Shape) (⟨2, ![E, 1]⟩ : Shape) (⟨2, ![E, D]⟩ : Shape) [1] [0] [0] 1)
    (e : Fin E) (k' : Fin D) :
    (rowScatterDims M D E wf).window (ix2 e k') 1 = k'.val := by
  unfold ScatterDims.window
  rw [dif_pos (show (1 : Fin 2) ∈ (rowScatterDims M D E wf).sKept from (by decide : (1 : Fin 2) ∈ (List.finRange 2).filter (· ∉ [(0 : Fin 2)])))]
  rfl

/-- Update element `(e, k')` lands on operand element `(r, k)` exactly when row `e`'s index is `r` and the columns agree. -/
theorem resultIdx?_eq_some_iff {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) (r : Fin M) (k : Fin D) :
    (rowScatterDims M D E wf).resultIdx? (ix2 e k') idx = some (ix2 r k)
      ↔ (idx (ix2 e (0 : Fin 1))).toInt = (r.val : ℤ) ∧ k' = k := by
  have hs0 := start_zero wf idx e k'
  have hs1 := start_one wf idx (ix2 e k')
  have hw0 := window_zero wf (ix2 e k')
  have hw1 := window_one wf e k'
  have hr := r.isLt
  have hk := k.isLt
  have hk' := k'.isLt
  constructor
  · intro hres
    unfold ScatterDims.resultIdx? at hres
    split_ifs at hres with h
    rw [Option.some.injEq] at hres
    have e0 : ((rowScatterDims M D E wf).start (ix2 e k') idx 0 + (rowScatterDims M D E wf).window (ix2 e k') 0).toNat = r.val :=
      congrArg Fin.val (congrFun hres 0)
    have e1 : ((rowScatterDims M D E wf).start (ix2 e k') idx 1 + (rowScatterDims M D E wf).window (ix2 e k') 1).toNat = k.val :=
      congrArg Fin.val (congrFun hres 1)
    have h0 := (h 0).1
    rw [hs0, hw0] at e0 h0
    rw [hs1, hw1] at e1
    exact ⟨by omega, Fin.ext (by omega)⟩
  · rintro ⟨hidx, rfl⟩
    unfold ScatterDims.resultIdx?
    have h : ∀ a, 0 ≤ (rowScatterDims M D E wf).start (ix2 e k') idx a + (rowScatterDims M D E wf).window (ix2 e k') a
        ∧ (rowScatterDims M D E wf).start (ix2 e k') idx a + (rowScatterDims M D E wf).window (ix2 e k') a
          < (⟨2, ![M, D]⟩ : Shape).size a := by
      refine Fin.forall_fin_two.2 ⟨?_, ?_⟩
      · rw [hs0, hw0]
        show 0 ≤ _ ∧ _ < (M : ℤ)
        omega
      · rw [hs1, hw1]
        show 0 ≤ _ ∧ _ < (D : ℤ)
        omega
    rw [dif_pos h, Option.some.injEq]
    funext a
    refine Fin.ext ?_
    revert a
    refine Fin.forall_fin_two.2 ⟨?_, ?_⟩
    · show ((rowScatterDims M D E wf).start (ix2 e k') idx 0 + (rowScatterDims M D E wf).window (ix2 e k') 0).toNat = r.val
      rw [hs0, hw0]; omega
    · show ((rowScatterDims M D E wf).start (ix2 e k') idx 1 + (rowScatterDims M D E wf).window (ix2 e k') 1).toNat = k'.val
      rw [hs1, hw1]; omega

/-- THE ROW SCATTER-ADD AT `(r, k)`: the operand's element plus the update rows whose index is `r`, at column `k`. -/
theorem rowScatterAdd_apply {M D E w : Nat}
    (wf : ScatterDims.WF (⟨2, ![M, D]⟩ : Shape) (⟨2, ![E, 1]⟩ : Shape) (⟨2, ![E, D]⟩ : Shape) [1] [0] [0] 1)
    (x : (⟨2, ![M, D]⟩ : Shape).Idx → EReal) (idx : IVec (⟨2, ![E, 1]⟩ : Shape) w)
    (u : (⟨2, ![E, D]⟩ : Shape).Idx → EReal) (r : Fin M) (k : Fin D) :
    Ideal.hostScatterAdd (rowScatterDims M D E wf) x idx u (ix2 r k)
      = x (ix2 r k) + ∑ e : Fin E, if (idx (ix2 e (0 : Fin 1))).toInt = (r.val : ℤ) then u (ix2 e k) else 0 := by
  unfold Ideal.hostScatterAdd
  congr 1
  rw [Finset.sum_filter, sum_idx2]
  refine Finset.sum_congr rfl fun e _ => ?_
  simp only [resultIdx?_eq_some_iff]
  by_cases hi : (idx (ix2 e (0 : Fin 1))).toInt = (r.val : ℤ)
  · simp only [hi, true_and, if_true]
    rw [Finset.sum_ite_eq']
    simp
  · simp only [hi, false_and, if_false, Finset.sum_const_zero]

end Cert.LibSegmentSum

end
-- ==== Proof.Region4.lean ====
/-
  The pooling region. Over 25 grid points the kernel keeps one [512,128] output block whose index never moves: the
  first point resets it to zero, every point adds to it the product, contracted over the point's 2000 rows, of the
  rows' one-hot encoding of their graph ids with the rows' features, and the block is written back after the last
  point only. Over the extended reals `1 * x = x` and `0 * x = 0` for every `x`, and addition is commutative and
  associative, so entry `(g, d)` of the array the region leaves is the sum, over all 50000 rows whose id is `g`, of
  their feature `d` — which is what the reference's accumulating row scatter onto the zero array holds there.
-/
import proofs.«420813_j4252017623589_2_alg».proof.Proof.Gen.KernelIdeal.Frame
import proofs.«420813_j4252017623589_2_alg».proof.Proof.Gen.ReferenceIdeal
import Idealize.ShloMosaic.Lib.Pipeline.Value
import Idealize.ShloMosaic.Lib.ValueIdx
import Idealize.ShloMosaic.PureOps.Ideal.Laws
import proofs.«420813_j4252017623589_2_alg».proof.Proof.LibSegmentSum
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

namespace Region4

open Idealize.ShloMosaic.ValueIdx

/-! ## What each case of the body leaves in the output block

The output block's staging buffer is written through the whole-block rectangle at zero offsets. At the first point the
body stores the zero block, reads it back and stores the update of it; at every later point it stores the update of
what the point before left. -/

section Pieces
variable {F : FTy → Type} [FloatOps F]

theorem zero_offsets : (![0, 0] : Fin 2 → Nat) = fun _ => 0 := funext fun a => by fin_cases a <;> rfl

/-- A later point: the one covering store's payload, the update of the carried block `acc` by the point's two input blocks. -/
theorem carried_leaves (c : Dev nD) (i : grid4.Coords) (a1 : Memref sig .tc .vmem S2000x1 .i32) (h1 : a1.IsWhole)
    (a2 : Memref sig .tc .vmem S2000x128 .f32) (h2 : a2.IsWhole) (a3 : Memref sig .tc .vmem S512x128 .f32) (h3 : a3.IsWhole)
    (hc : ¬cond4_0 i) (x0 : Vec F S2000x1 .i32) (x1 : Vec F S2000x128 .f32) (acc : Vec F S512x128 .f32) :
    out4_B_2 c i a1 h1 a2 h2 a3 h3 hc x0 x1 acc = k4_pay2 x0 x1 acc := by
  unfold out4_B_2
  rw [View.read_writes_eq_canon _ _ _ (cover4_B_2 c i a1 h1 a2 h2 a3 h3 hc x0 x1 acc)]
  unfold kernelRun4_B
  dsimp only
  sl_unfold_words
  rw [View.canon_unit_zero zero_offsets]
  simp only [View.readAt_eq_ld, h1.read_unread, h2.read_unread, h3.read_unread, View.ld_unit_zero (S := S2000x1) zero_offsets,
    View.ld_unit_zero (S := S2000x128) zero_offsets, View.ld_unit_zero (S := S512x128) zero_offsets]

/-- The first point: the update of the zero block the reset has just stored (the later store covers the block; its
    payload read the reset's store back). -/
theorem reset_leaves (c : Dev nD) (i : grid4.Coords) (a1 : Memref sig .tc .vmem S2000x1 .i32) (h1 : a1.IsWhole)
    (a2 : Memref sig .tc .vmem S2000x128 .f32) (h2 : a2.IsWhole) (a3 : Memref sig .tc .vmem S512x128 .f32) (h3 : a3.IsWhole)
    (hc : cond4_0 i) (x0 : Vec F S2000x1 .i32) (x1 : Vec F S2000x128 .f32) :
    out4_A_2 c i a1 h1 a2 h2 a3 h3 hc x0 x1 = k4_pay2 x0 x1 (k4_pay1 (F := F)) := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S512x128) zero_offsets, View.readCov_unit_zero (S := S512x128) _ zero_offsets]
  simp only [View.readAt_eq_ld, h1.read_unread, h2.read_unread, View.ld_unit_zero (S := S2000x1) zero_offsets,
    View.ld_unit_zero (S := S2000x128) zero_offsets]

end Pieces

/-! ## The update at an entry

The update adds to the carried block the product, contracted over the block's 2000 rows, of the rows' one-hot
encoding of their graph ids (row `r`, column `g`: 1 when row `r`'s id word is `g`, else 0) with the rows'
features. Over the extended reals `1 * x = x` and `0 * x = 0` for every `x`, so entry `(g, d)` gains the
features `d` of exactly the rows whose id is `g`. -/

/-- A 32-bit word equals a column number below 2³¹ exactly when, read signed, it is that number. -/
theorem word_eq_iff (w : BitVec 32) (g : Nat) (hg : g < 2 ^ 31) : w = BitVec.ofNat 32 g ↔ w.toInt = (g : ℤ) := by
  have hw := w.isLt
  rw [BitVec.toInt_eq_toNat_cond]
  constructor
  · intro h
    have e : w.toNat = g := by rw [h, BitVec.toNat_ofNat]; exact Nat.mod_eq_of_lt (by omega)
    split_ifs <;> omega
  · intro h
    apply BitVec.eq_of_toNat_eq
    rw [BitVec.toNat_ofNat, Nat.mod_eq_of_lt (by omega)]
    split_ifs at h <;> omega

/-- The one-hot entry as a number: the comparison bit, widened and converted, is 1 or 0. -/
theorem onehot_word (w : BitVec 32) (g : Nat) (hg : g < 2 ^ 31) :
    ((((IntOp.cmpi .eq w (BitVec.ofNat 32 g)).setWidth 32).toInt : ℝ) : EReal) = if w.toInt = (g : ℤ) then 1 else 0 := by
  by_cases h : w = BitVec.ofNat 32 g
  · have hb : IntOp.cmpi .eq w (BitVec.ofNat 32 g) = 1#1 := by
      show BitVec.ofBool (w == BitVec.ofNat 32 g) = 1#1
      rw [beq_iff_eq.mpr h]; rfl
    have e1 : ((1#1 : BitVec 1).setWidth 32).toInt = 1 := by decide
    rw [hb, if_pos ((word_eq_iff w g hg).mp h), e1]
    simp
  · have hb : IntOp.cmpi .eq w (BitVec.ofNat 32 g) = 0#1 := by
      show BitVec.ofBool (w == BitVec.ofNat 32 g) = 0#1
      rw [beq_eq_false_iff_ne.mpr h]; rfl
    have e0 : ((0#1 : BitVec 1).setWidth 32).toInt = 0 := by decide
    rw [hb, if_neg (fun h' => h ((word_eq_iff w g hg).mpr h')), e0]
    simp

/-- The one-hot block at `(r, g)`: the id column broadcast along the columns, compared with the column numbers. -/
theorem onehot_apply (ids : IVec S2000x1 32) (hsc : S2000x1.ShapeCasts S2000x1) (hbc : S2000x1.Broadcasts S2000x512)
    (hio : S2000x512.Iotas .tc 32 [1]) (hw : 1 < 32) (hbits : FTy.bits .bf16 < FTy.bits .f32) (r : Fin 2000) (g : Fin 512) :
    (truncf .bf16 (sitofp (F := Ideal) .f32 (extui 32 (cmpi .eq (broadcastTo S2000x512 (shapeCast S2000x1 ids hsc) hbc)
        (iota .tc S2000x512 32 [1] hio)) hw)) hbits : FVec Ideal S2000x512 .bf16) (ix2 r g)
      = if BitVec.toInt (ids (ix2 r (0 : Fin 1))) = (g.val : ℤ) then 1 else 0 := by
  have hb : broadcastTo S2000x512 (shapeCast S2000x1 ids hsc) hbc (ix2 r g) = ids (ix2 r (0 : Fin 1)) := by
    rw [shapeCast_self]
    refine broadcastTo_apply ids hbc (ix2 r g) (ix2 r (0 : Fin 1)) fun a => ?_
    match a with
    | ⟨0, _⟩ => show r.val = if (2000 : Nat) = 1 then 0 else r.val; rw [if_neg (by decide)]
    | ⟨1, _⟩ => show (0 : Nat) = if (1 : Nat) = 1 then 0 else g.val; rw [if_pos rfl]
  have hi : iota .tc S2000x512 32 [1] hio (ix2 r g) = BitVec.ofNat 32 g.val := iota_single_apply .tc S2000x512 32 1 hio (ix2 r g)
  show ((((IntOp.cmpi .eq (broadcastTo S2000x512 (shapeCast S2000x1 ids hsc) hbc (ix2 r g))
      (iota .tc S2000x512 32 [1] hio (ix2 r g))).setWidth 32).toInt : ℝ) : EReal) = _
  rw [hb, hi]
  exact onehot_word _ g.val (by have := g.isLt; omega)

theorem lhs_axis0 (j : S512x128.Idx) (q : dot_S2000x512_S2000x128_S512x128_0_0_1_1_n_n.contr.Idx) :
    (dot_S2000x512_S2000x128_S512x128_0_0_1_1_n_n.lhsIdx j q 0).val = (q ⟨0, by decide⟩).val :=
  dot_S2000x512_S2000x128_S512x128_0_0_1_1_n_n.lhsIdx_val_of_single rfl j q
theorem lhs_axis1 (j : S512x128.Idx) (q : dot_S2000x512_S2000x128_S512x128_0_0_1_1_n_n.contr.Idx) :
    (dot_S2000x512_S2000x128_S512x128_0_0_1_1_n_n.lhsIdx j q 1).val = (j 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
theorem rhs_axis0 (j : S512x128.Idx) (q : dot_S2000x512_S2000x128_S512x128_0_0_1_1_n_n.contr.Idx) :
    (dot_S2000x512_S2000x128_S512x128_0_0_1_1_n_n.rhsIdx j q 0).val = (q ⟨0, by decide⟩).val :=
  dot_S2000x512_S2000x128_S512x128_0_0_1_1_n_n.rhsIdx_val_of_single rfl j q
theorem rhs_axis1 (j : S512x128.Idx) (q : dot_S2000x512_S2000x128_S512x128_0_0_1_1_n_n.contr.Idx) :
    (dot_S2000x512_S2000x128_S512x128_0_0_1_1_n_n.rhsIdx j q 1).val = (j 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- The product onto the zero block, at `(g, d)`: the sum over the block's rows of the two operands' entries in that row. -/
theorem rows_product_apply (lhs : FVec Ideal S2000x512 .bf16) (rhs : FVec Ideal S2000x128 .bf16) (g : Fin 512) (d : Fin 128) :
    matmul dot_S2000x512_S2000x128_S512x128_0_0_1_1_n_n none lhs rhs (constant (F := Ideal) S512x128 .f32 0x00000000#32) (ix2 g d)
      = ∑ r : Fin 2000, lhs (ix2 r g) * rhs (ix2 r d) := by
  simp only [matmul]
  rw [Ideal.matmul_constant_zero_apply, ← Equiv.sum_comp (contrEquiv1 dot_S2000x512_S2000x128_S512x128_0_0_1_1_n_n 2000 rfl rfl).symm]
  refine Finset.sum_congr rfl fun k _ => ?_
  have hk := contrEquiv1_symm_val dot_S2000x512_S2000x128_S512x128_0_0_1_1_n_n 2000 rfl rfl k
  have el : dot_S2000x512_S2000x128_S512x128_0_0_1_1_n_n.lhsIdx (ix2 g d) ((contrEquiv1 dot_S2000x512_S2000x128_S512x128_0_0_1_1_n_n 2000 rfl rfl).symm k) = ix2 k g := funext fun a => Fin.ext (by
    match a with
    | ⟨0, _⟩ => exact (lhs_axis0 _ _).trans hk
    | ⟨1, _⟩ => exact lhs_axis1 _ _)
  have er : dot_S2000x512_S2000x128_S512x128_0_0_1_1_n_n.rhsIdx (ix2 g d) ((contrEquiv1 dot_S2000x512_S2000x128_S512x128_0_0_1_1_n_n 2000 rfl rfl).symm k) = ix2 k d := funext fun a => Fin.ext (by
    match a with
    | ⟨0, _⟩ => exact (rhs_axis0 _ _).trans hk
    | ⟨1, _⟩ => exact rhs_axis1 _ _)
  rw [el, er]

/-- THE UPDATE AT `(g, d)`: the carried entry plus the features `d` of the block's rows whose id is `g`. -/
theorem update_apply (x0 : Vec Ideal S2000x1 .i32) (x1 : Vec Ideal S2000x128 .f32) (acc : Vec Ideal S512x128 .f32)
    (g : Fin 512) (d : Fin 128) :
    k4_pay2 (F := Ideal) x0 x1 acc (ix2 g d)
      = acc (ix2 g d) + ∑ r : Fin 2000, (if BitVec.toInt (x0 (ix2 r (0 : Fin 1))) = (g.val : ℤ) then x1 (ix2 r d) else 0) := by
  unfold k4_pay2
  refine (addf_apply _ _ (ix2 g d)).trans ?_
  refine congrArg₂ (· + ·) (congrFun (shapeCast_self acc _) (ix2 g d)) ?_
  refine (rows_product_apply _ _ g d).trans ?_
  refine Finset.sum_congr rfl fun r _ => ?_
  refine (congrArg₂ (· * ·) (onehot_apply x0 _ _ _ _ _ r g) (congrFun (shapeCast_self x1 _) (ix2 r d))).trans ?_
  split_ifs
  · exact one_mul _
  · exact zero_mul _

/-! ## The blocks the body reads, and the rows' contributions

Point `t` reads rows `2000 t … 2000 t + 1999` of the id column and of the feature array: block row `r` is array row
`2000 t + r`. -/

/-- The index maps over the grid: both inputs' block number is the point, the output's never moves. -/
theorem index_maps : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- The id column and the feature array as the region finds them, and the blocks of them point `t` reads. -/
abbrev idsArr (c : Dev nD) : IVec S50000x1 32 := V c main_v80
abbrev featArr (c : Dev nD) : FVec Ideal S50000x128 .f32 := V c main_v75
abbrev idsBlk (c : Dev nD) (t : Fin cfg4.N) : Vec Ideal S2000x1 .i32 := iblk4 V c 0 t
abbrev featBlk (c : Dev nD) (t : Fin cfg4.N) : Vec Ideal S2000x128 .f32 := iblk4 V c 1 t

theorem idsBlk_apply (c : Dev nD) (t : Fin cfg4.N) (r : Fin 2000) (hr : 2000 * t.val + r.val < 50000) :
    idsBlk V c t (ix2 r (0 : Fin 1)) = idsArr V c (ix2 (⟨2000 * t.val + r.val, hr⟩ : Fin 50000) (0 : Fin 1)) := by
  obtain ⟨e0, e1, -⟩ := index_maps t
  show ((cfg4.win 0).blk t).view.read (Elt Ideal) (V c (Pipeline.arrRef spec4 0)) (ix2 r (0 : Fin 1)) = _
  rw [View.read_apply]
  show V c main_v80 (((cfg4.win 0).blk t).view.emb (ix2 r (0 : Fin 1))) = V c main_v80 (ix2 (⟨2000 * t.val + r.val, hr⟩ : Fin 50000) (0 : Fin 1))
  congr 1
  funext a
  apply Fin.ext
  match a with
  | ⟨0, _⟩ => show win4_0.index t (0 : Fin 2) * 2000 + 1 * r.val = 2000 * t.val + r.val; rw [e0]; omega
  | ⟨1, _⟩ => show win4_0.index t (1 : Fin 2) * 1 + 1 * 0 = 0; rw [e1]

theorem featBlk_apply (c : Dev nD) (t : Fin cfg4.N) (r : Fin 2000) (d : Fin 128) (hr : 2000 * t.val + r.val < 50000) :
    featBlk V c t (ix2 r d) = featArr V c (ix2 (⟨2000 * t.val + r.val, hr⟩ : Fin 50000) d) := by
  obtain ⟨-, -, e0, e1, -⟩ := index_maps t
  show ((cfg4.win 1).blk t).view.read (Elt Ideal) (V c (Pipeline.arrRef spec4 1)) (ix2 r d) = _
  rw [View.read_apply]
  show V c main_v75 (((cfg4.win 1).blk t).view.emb (ix2 r d)) = V c main_v75 (ix2 (⟨2000 * t.val + r.val, hr⟩ : Fin 50000) d)
  congr 1
  funext a
  apply Fin.ext
  match a with
  | ⟨0, _⟩ => show win4_1.index t (0 : Fin 2) * 2000 + 1 * r.val = 2000 * t.val + r.val; rw [e0]; omega
  | ⟨1, _⟩ => show win4_1.index t (1 : Fin 2) * 128 + 1 * d.val = d.val; rw [e1]; omega

/-- Array row `e`'s contribution to entry `(g, d)`: its feature `d` when its id, read signed, is `g`; nothing otherwise. -/
def rowTerm (c : Dev nD) (g : Fin 512) (d : Fin 128) (e : Fin 50000) : EReal :=
  if BitVec.toInt (idsArr V c (ix2 e (0 : Fin 1))) = (g.val : ℤ) then featArr V c (ix2 e d) else 0

/-- Block `s`'s contribution to entry `(g, d)`: that of its 2000 rows (no block past the 25th). -/
def blockTerm (c : Dev nD) (g : Fin 512) (d : Fin 128) (s : ℕ) : EReal :=
  if hs : s < 25 then ∑ r : Fin 2000, rowTerm V c g d ⟨2000 * s + r.val, by have := r.isLt; omega⟩ else 0

/-- What the update adds at point `t` is block `t`'s contribution. -/
theorem block_sum (c : Dev nD) (t : Fin cfg4.N) (g : Fin 512) (d : Fin 128) :
    (∑ r : Fin 2000, if BitVec.toInt (idsBlk V c t (ix2 r (0 : Fin 1))) = (g.val : ℤ) then featBlk V c t (ix2 r d) else 0)
      = blockTerm V c g d t.val := by
  have ht : t.val < 25 := lt_of_lt_of_eq t.isLt (show cfg4.N = 25 from N_4)
  unfold blockTerm
  rw [dif_pos ht]
  refine Finset.sum_congr rfl fun r _ => ?_
  have hr : 2000 * t.val + r.val < 50000 := by have := r.isLt; omega
  unfold rowTerm
  rw [idsBlk_apply V c t r hr, featBlk_apply V c t r d hr]

/-! ## The carried block after each point -/

/-- After point `n` the carried block holds, at `(g, d)`, the contributions of blocks `0 … n`: the reset's zero plus
    block 0's at the first point, one more block's at each later point. -/
theorem carried_apply (c : Dev nD) : ∀ (n : ℕ) (h : n < cfg4.N) (g : Fin 512) (d : Fin 128),
    outsAt4 V c n h (ix2 g d) = ∑ s ∈ Finset.range (n + 1), blockTerm V c g d s
  | 0, h, g, d => by
    refine (congrFun (outsAt4_A V c ⟨0, h⟩ rfl) (ix2 g d)).trans ?_
    refine (congrFun (reset_leaves (F := Ideal) c (grid4.coords ⟨0, h⟩) (ms4_0 ⟨0, h⟩) (hs4_0 ⟨0, h⟩) (ms4_1 ⟨0, h⟩) (hs4_1 ⟨0, h⟩)
      (ms4_2 ⟨0, h⟩) (hs4_2 ⟨0, h⟩) ((hcond4_0 ⟨0, h⟩).mpr rfl) (idsBlk V c ⟨0, h⟩) (featBlk V c ⟨0, h⟩)) (ix2 g d)).trans ?_
    refine (update_apply (idsBlk V c ⟨0, h⟩) (featBlk V c ⟨0, h⟩) (k4_pay1 (F := Ideal)) g d).trans ?_
    rw [block_sum V c ⟨0, h⟩ g d, Finset.sum_range_one]
    show Ideal.ofBits .f32 0x00000000#32 + _ = _
    rw [Ideal.ofBits_zero_f32, zero_add]
  | n + 1, h, g, d => by
    have hN : cfg4.N = 25 := N_4
    have hB : ¬(⟨n + 1, h⟩ : Fin cfg4.N).val % 25 = 0 := by dsimp only; omega
    refine (congrFun (outsAt4_B V c ⟨n + 1, h⟩ hB) (ix2 g d)).trans ?_
    refine (congrFun (carried_leaves (F := Ideal) c (grid4.coords ⟨n + 1, h⟩) (ms4_0 ⟨n + 1, h⟩) (hs4_0 ⟨n + 1, h⟩) (ms4_1 ⟨n + 1, h⟩) (hs4_1 ⟨n + 1, h⟩)
      (ms4_2 ⟨n + 1, h⟩) (hs4_2 ⟨n + 1, h⟩) (fun h' => hB ((hcond4_0 ⟨n + 1, h⟩).mp h')) (idsBlk V c ⟨n + 1, h⟩) (featBlk V c ⟨n + 1, h⟩)
      (outsAt4 V c n (Nat.lt_of_succ_lt h))) (ix2 g d)).trans ?_
    refine (update_apply (idsBlk V c ⟨n + 1, h⟩) (featBlk V c ⟨n + 1, h⟩) (outsAt4 V c n (Nat.lt_of_succ_lt h)) g d).trans ?_
    rw [block_sum V c ⟨n + 1, h⟩ g d, carried_apply c n (Nat.lt_of_succ_lt h) g d, Finset.sum_range_succ _ (n + 1)]

/-! ## All 25 blocks are all 50000 rows, and the reference's scatter -/

/-- Array row `2000 t + r` from block `t` and block row `r`: the 25 blocks of 2000 rows are the 50000 rows, each once. -/
def rowEquiv : Fin 25 × Fin 2000 ≃ Fin 50000 := finProdFinEquiv.trans (finCongr (by norm_num))

theorem rowEquiv_val (t : Fin 25) (r : Fin 2000) : (rowEquiv (t, r)).val = 2000 * t.val + r.val := by
  show r.val + 2000 * t.val = 2000 * t.val + r.val
  omega

/-- A sum over the rows is the sum over the blocks of the sums over each block's rows. -/
theorem sum_rows (f : Fin 50000 → EReal) :
    ∑ e : Fin 50000, f e = ∑ t : Fin 25, ∑ r : Fin 2000, f ⟨2000 * t.val + r.val, by have := t.isLt; have := r.isLt; omega⟩ := by
  rw [← Equiv.sum_comp rowEquiv f, Fintype.sum_prod_type]
  refine Finset.sum_congr rfl fun t _ => Finset.sum_congr rfl fun r _ => congrArg f (Fin.ext ?_)
  exact rowEquiv_val t r

/-- So the 25 blocks' contributions are the 50000 rows'. -/
theorem blocks_total (c : Dev nD) (g : Fin 512) (d : Fin 128) :
    ∑ s ∈ Finset.range 25, blockTerm V c g d s = ∑ e : Fin 50000, rowTerm V c g d e := by
  rw [sum_rows, Finset.sum_range]
  refine Finset.sum_congr rfl fun t _ => ?_
  unfold blockTerm
  rw [dif_pos t.isLt]

/-- The reference's accumulating row scatter at `(g, d)`: the operand's entry plus the features `d` of the rows whose
    id is `g` (a row whose id is outside `[0, 512)` lands nowhere). -/
theorem scatter_apply (x : FVec Ideal Cert.ReferenceIdeal.S512x128 .f32) (idx : IVec Cert.ReferenceIdeal.S50000x1 32)
    (u : FVec Ideal Cert.ReferenceIdeal.S50000x128 .f32) (g : Fin 512) (d : Fin 128) :
    Host.scatterAdd (F := Ideal) Cert.ReferenceIdeal.scatter_S512x128_S50000x1_S50000x128_1_0_0_1 x idx u (ix2 g d)
      = x (ix2 g d) + ∑ e : Fin 50000, if BitVec.toInt (idx (ix2 e (0 : Fin 1))) = (g.val : ℤ) then u (ix2 e d) else 0 :=
  Cert.LibSegmentSum.rowScatterAdd_apply Cert.ReferenceIdeal.scatter_S512x128_S50000x1_S50000x128_1_0_0_1.wf x idx u g d

/-- The pooled array: the reference's scatter of the features by the ids onto the zero array. -/
abbrev pooled (c : Dev nD) : Buf (Elt Ideal) ((c : Thread nD τ).loc main_v81) :=
  Host.scatterAdd (F := Ideal) Cert.ReferenceIdeal.scatter_S512x128_S50000x1_S50000x128_1_0_0_1
    (broadcastInDim Cert.ReferenceIdeal.S512x128 ![] Cert.ReferenceIdeal.Facts₀.bcast_S_S512x128 (constant (F := Ideal) Cert.ReferenceIdeal.S_ .f32 0x00000000#32))
    (V c main_v80) (V c main_v75)

/-- The last point. -/
abbrev lastPoint : Fin cfg4.N := ⟨24, by decide⟩

/-- After the last point the carried block is the pooled array: at `(g, d)` both are the sum over all rows whose id is
    `g` of their feature `d` (onto zero). -/
theorem carried_last (c : Dev nD) : outsAt4 V c lastPoint.val lastPoint.isLt = pooled V c := by
  funext j
  obtain ⟨g, d, rfl⟩ : ∃ (g : Fin 512) (d : Fin 128), j = ix2 g d := ⟨j 0, j 1, eq_ix2 j⟩
  refine (carried_apply V c 24 lastPoint.isLt g d).trans ?_
  refine (blocks_total V c g d).trans ?_
  refine Eq.trans ?_ (scatter_apply _ (idsArr V c) (featArr V c) g d).symm
  show _ = Ideal.ofBits .f32 0x00000000#32 + _
  rw [Ideal.ofBits_zero_f32, zero_add]
  rfl

/-! ## The array after the region -/

/-- The one write-back, after the last point, writes the pooled array: the output's one block is the whole array. -/
theorem flushed_eq (c : Dev nD) (t : Fin cfg4.N) (hf : (cfg4.win 2).flush t = true) :
    (dat4 V c).flushed 2 t = ((cfg4.win 2).blk t).view.read (Elt Ideal) (pooled V c) := by
  have hN : cfg4.N = 25 := N_4
  have h24 : t.val = 24 := by have := (flush4_2 t).mp hf; have := t.isLt; omega
  obtain rfl : t = lastPoint := Fin.ext h24
  show (cfg4.win 2).cut (grid4.coords lastPoint) ((dat4 V c).after 2 lastPoint) = _
  rw [after4_2, carried_last]
  obtain ⟨-, -, -, -, e0, e1⟩ := index_maps lastPoint
  have hz' : (fun a => win4_2.index lastPoint a * main_v81.ty.shape.size a) = fun _ => 0 := funext fun a => by
    match a with
    | ⟨0, _⟩ => show win4_2.index lastPoint (0 : Fin 2) * 512 = 0; rw [e0]
    | ⟨1, _⟩ => show win4_2.index lastPoint (1 : Fin 2) * 128 = 0; rw [e1]
  exact (Memref.read_access_unit_zero (Elt Ideal) main_v81 hz' (fun a => by rw [congrFun hz' a]; simp) (pooled V c)).symm

end Region4

open Region4 in
/-- REGION 4: after the pooling kernel's 25 points the result array holds the reference's accumulating row scatter of
    the features by the graph ids onto the zero array — at `(g, d)`, the sum of feature `d` over the rows whose id is `g`. -/
theorem region4_value (c : Dev nD) :
    (dat4 (F := Ideal) V c).arrAt 2 cfg4.N
      = Host.scatterAdd (F := Ideal) Cert.ReferenceIdeal.scatter_S512x128_S50000x1_S50000x128_1_0_0_1
          (broadcastInDim Cert.ReferenceIdeal.S512x128 ![] Cert.ReferenceIdeal.Facts₀.bcast_S_S512x128 (constant (F := Ideal) Cert.ReferenceIdeal.S_ .f32 0x00000000#32))
          (V c main_v80) (V c main_v75) :=
  (dat4 V c).arrAt_eq_of_cover 2 (pooled V c) (flushed_eq V c) fun i =>
    ⟨lastPoint, (flush4_2 lastPoint).mpr rfl, by
      obtain ⟨-, -, -, -, e0, e1⟩ := index_maps lastPoint
      show i ∈ ((View.whole main_v81).slice (win4_2.rect lastPoint)).set
      rw [View.set_slice_whole, Rect.mem_set_unit]
      intro a
      have h0 : (i 0 : Nat) < 512 := (i 0).isLt
      have h1 : (i 1 : Nat) < 128 := (i 1).isLt
      match a with
      | ⟨0, _⟩ => show win4_2.index lastPoint (0 : Fin 2) * 512 ≤ (i 0 : Nat) ∧ (i 0 : Nat) < win4_2.index lastPoint (0 : Fin 2) * 512 + 512
                  rw [e0]; omega
      | ⟨1, _⟩ => show win4_2.index lastPoint (1 : Fin 2) * 128 ≤ (i 1 : Nat) ∧ (i 1 : Nat) < win4_2.index lastPoint (1 : Fin 2) * 128 + 128
                  rw [e1]; omega⟩

end Cert.KernelIdeal.RegionValue

end
-- ==== Proof.Region5.lean ====
import proofs.«420813_j4252017623589_2_alg».proof.Proof.Gen.KernelIdeal.Frame
import proofs.«420813_j4252017623589_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

namespace Region5

/-! ## The two sides' operations, identified

At the extended reals a format change is the identity, the kernel's division and the host's are one function, and a
matrix product onto the zero accumulator is the host's contraction. The kernel broadcasts a vector along trailing
axes, the reference along named axes; for a column and for a row these read the same entry. -/

/-- A matrix product of two narrowed operands onto the zero accumulator is the host's contraction of the operands. -/
theorem matmul_narrowed_zero_eq_dotGeneral {sl sr so : Shape} (d : DotDims sl sr so)
    (a : FVec Ideal sl .f32) (b : FVec Ideal sr .f32)
    (h1 : FTy.bits .bf16 < FTy.bits .f32) (h2 : FTy.bits .bf16 < FTy.bits .f32) :
    matmul (F := Ideal) d none (truncf .bf16 a h1) (truncf .bf16 b h2) (constant so .f32 0x00000000#32)
      = Host.dotGeneral (F := Ideal) d none a b := by
  funext j
  refine (Ideal.matmul_constant_zero_apply d none _ _ j).trans ?_
  exact (Ideal.dotGeneral_apply d none .single a b j).symm

/-- The kernel's records of the two products are the reference's. -/
theorem dims_first : dot_S512x128_S128x32_S512x32_1_0_0_1_n_n = Cert.ReferenceIdeal.dot_S512x128_S128x32_S512x32_1_0_0_1_n_n := rfl
theorem dims_second : dot_S512x32_S32x4_S512x4_1_0_0_1_n_n = Cert.ReferenceIdeal.dot_S512x32_S32x4_S512x4_1_0_0_1_n_n := rfl

/-- A [512,1] column broadcast to [512,128]: along trailing axes, or along the axes 0 and 1, entry (r, c) reads row r. -/
theorem column_broadcast {α : Type} (v : S512x1.Idx → α) (h : S512x1.Broadcasts S512x128)
    (h' : Cert.ReferenceIdeal.S512x1.BroadcastsInDim Cert.ReferenceIdeal.S512x128 ![0, 1]) :
    broadcastTo S512x128 v h = broadcastInDim Cert.ReferenceIdeal.S512x128 ![0, 1] h' v := by
  funext j
  unfold broadcastTo broadcastInDim
  refine congrArg v (funext fun a => ?_)
  match a with
  | ⟨0, _⟩ => rfl
  | ⟨1, _⟩ => rfl

/-- A [1,32] row broadcast to [512,32]: entry (r, c) reads column c. -/
theorem row32_broadcast {α : Type} (v : S1x32.Idx → α) (h : S1x32.Broadcasts S512x32)
    (h' : Cert.ReferenceIdeal.S1x32.BroadcastsInDim Cert.ReferenceIdeal.S512x32 ![0, 1]) :
    broadcastTo S512x32 v h = broadcastInDim Cert.ReferenceIdeal.S512x32 ![0, 1] h' v := by
  funext j
  unfold broadcastTo broadcastInDim
  refine congrArg v (funext fun a => ?_)
  match a with
  | ⟨0, _⟩ => rfl
  | ⟨1, _⟩ => rfl

/-- A [1,4] row broadcast to [512,4]: entry (r, c) reads column c. -/
theorem row4_broadcast {α : Type} (v : S1x4.Idx → α) (h : S1x4.Broadcasts S512x4)
    (h' : Cert.ReferenceIdeal.S1x4.BroadcastsInDim Cert.ReferenceIdeal.S512x4 ![0, 1]) :
    broadcastTo S512x4 v h = broadcastInDim Cert.ReferenceIdeal.S512x4 ![0, 1] h' v := by
  funext j
  unfold broadcastTo broadcastInDim
  refine congrArg v (funext fun a => ?_)
  match a with
  | ⟨0, _⟩ => rfl
  | ⟨1, _⟩ => rfl

/-! ## The body's payload -/

/-- The head as one function of its six arrays: counts clamped below at one, the pooled sums divided by them,
    the first layer with its bias clamped below at zero, the second layer with its bias. -/
def head (a0 : FVec Ideal S512x128 .f32) (a1 : FVec Ideal S512x1 .f32) (a2 : FVec Ideal S128x32 .f32)
    (a3 : FVec Ideal S1x32 .f32) (a4 : FVec Ideal S32x4 .f32) (a5 : FVec Ideal S1x4 .f32) : FVec Ideal S512x4 .f32 :=
  addf (Host.dotGeneral (F := Ideal) (φ₁ := .f32) (φ₂ := .f32) Cert.ReferenceIdeal.dot_S512x32_S32x4_S512x4_1_0_0_1_n_n none
          (maximumf (addf (Host.dotGeneral (F := Ideal) (φ₁ := .f32) (φ₂ := .f32) Cert.ReferenceIdeal.dot_S512x128_S128x32_S512x32_1_0_0_1_n_n none
              (Host.divf a0 (broadcastInDim Cert.ReferenceIdeal.S512x128 ![0, 1] Cert.ReferenceIdeal.Facts₀.bcast_S512x1_S512x128_0_1
                (maximumf a1 (broadcast S512x1 (Scalar.ofBits (F := Ideal) .f32 0x3F800000#32)))))
              a2)
            (broadcastInDim Cert.ReferenceIdeal.S512x32 ![0, 1] Cert.ReferenceIdeal.Facts₀.bcast_S1x32_S512x32_0_1 a3))
            (broadcastInDim Cert.ReferenceIdeal.S512x32 ![] Cert.ReferenceIdeal.Facts₀.bcast_S_S512x32 (constant (F := Ideal) Cert.ReferenceIdeal.S_ .f32 0x00000000#32)))
          a4)
        (broadcastInDim Cert.ReferenceIdeal.S512x4 ![0, 1] Cert.ReferenceIdeal.Facts₀.bcast_S1x4_S512x4_0_1 a5)

/-- The body's payload is the head of its six loaded blocks. -/
theorem payload_eq_head (x0 : FVec Ideal S512x128 .f32) (x1 : FVec Ideal S512x1 .f32) (x2 : FVec Ideal S128x32 .f32)
    (x3 : FVec Ideal S1x32 .f32) (x4 : FVec Ideal S32x4 .f32) (x5 : FVec Ideal S1x4 .f32) :
    k5_pay1 (F := Ideal) x1 x0 x2 x3 x4 x5 = head x0 x1 x2 x3 x4 x5 := by
  unfold k5_pay1 head
  simp only [shapeCast_self]
  rw [matmul_narrowed_zero_eq_dotGeneral, matmul_narrowed_zero_eq_dotGeneral, dims_first, dims_second,
    column_broadcast _ _ Cert.ReferenceIdeal.Facts₀.bcast_S512x1_S512x128_0_1,
    row32_broadcast _ _ Cert.ReferenceIdeal.Facts₀.bcast_S1x32_S512x32_0_1,
    row4_broadcast _ _ Cert.ReferenceIdeal.Facts₀.bcast_S1x4_S512x4_0_1]
  rfl

/-! ## From the one block to the array

The grid has one point and every window's block is its whole array at block index (0, 0): a block read through
zero offsets is the array, and the one write-back covers the output. -/

theorem zero_offsets : (![0, 0] : Fin 2 → Nat) = fun _ => 0 := funext fun a => by fin_cases a <;> rfl

/-- Window 0's block index is (0, 0) at every point (decided over the grid). -/
theorem origin0 : ∀ t : Fin cfg5.N, win5_0.index t (0 : Fin 2) = 0 ∧ win5_0.index t (1 : Fin 2) = 0 :=
  (by decide +kernel : ∀ t : Fin grid5.N, win5_0.index t (0 : Fin 2) = 0 ∧ win5_0.index t (1 : Fin 2) = 0)

/-- Window 0's block at the one point is its whole array. -/
theorem block0_whole (c : Dev nD) (t : Fin cfg5.N) :
    iblk5 V c 0 t = (V c main_v81 : S512x128.Idx → Elt Ideal .f32) := by
  funext j
  show V c main_v81 (((cfg5.win 0).blk t).view.emb j) = V c main_v81 j
  refine congrArg _ (funext fun a => Fin.ext ?_)
  match a with
  | ⟨0, _⟩ => show win5_0.index t (0 : Fin 2) * 512 + 1 * (j 0).val = (j 0).val; rw [(origin0 t).1]; omega
  | ⟨1, _⟩ => show win5_0.index t (1 : Fin 2) * 128 + 1 * (j 1).val = (j 1).val; rw [(origin0 t).2]; omega

/-- Window 1's block index is (0, 0) at every point (decided over the grid). -/
theorem origin1 : ∀ t : Fin cfg5.N, win5_1.index t (0 : Fin 2) = 0 ∧ win5_1.index t (1 : Fin 2) = 0 :=
  (by decide +kernel : ∀ t : Fin grid5.N, win5_1.index t (0 : Fin 2) = 0 ∧ win5_1.index t (1 : Fin 2) = 0)

/-- Window 1's block at the one point is its whole array. -/
theorem block1_whole (c : Dev nD) (t : Fin cfg5.N) :
    iblk5 V c 1 t = (V c main_v82 : S512x1.Idx → Elt Ideal .f32) := by
  funext j
  show V c main_v82 (((cfg5.win 1).blk t).view.emb j) = V c main_v82 j
  refine congrArg _ (funext fun a => Fin.ext ?_)
  match a with
  | ⟨0, _⟩ => show win5_1.index t (0 : Fin 2) * 512 + 1 * (j 0).val = (j 0).val; rw [(origin1 t).1]; omega
  | ⟨1, _⟩ => show win5_1.index t (1 : Fin 2) * 1 + 1 * (j 1).val = (j 1).val; rw [(origin1 t).2]; omega

/-- Window 2's block index is (0, 0) at every point (decided over the grid). -/
theorem origin2 : ∀ t : Fin cfg5.N, win5_2.index t (0 : Fin 2) = 0 ∧ win5_2.index t (1 : Fin 2) = 0 :=
  (by decide +kernel : ∀ t : Fin grid5.N, win5_2.index t (0 : Fin 2) = 0 ∧ win5_2.index t (1 : Fin 2) = 0)

/-- Window 2's block at the one point is its whole array. -/
theorem block2_whole (c : Dev nD) (t : Fin cfg5.N) :
    iblk5 V c 2 t = (V c main_arg9 : S128x32.Idx → Elt Ideal .f32) := by
  funext j
  show V c main_arg9 (((cfg5.win 2).blk t).view.emb j) = V c main_arg9 j
  refine congrArg _ (funext fun a => Fin.ext ?_)
  match a with
  | ⟨0, _⟩ => show win5_2.index t (0 : Fin 2) * 128 + 1 * (j 0).val = (j 0).val; rw [(origin2 t).1]; omega
  | ⟨1, _⟩ => show win5_2.index t (1 : Fin 2) * 32 + 1 * (j 1).val = (j 1).val; rw [(origin2 t).2]; omega

/-- Window 3's block index is (0, 0) at every point (decided over the grid). -/
theorem origin3 : ∀ t : Fin cfg5.N, win5_3.index t (0 : Fin 2) = 0 ∧ win5_3.index t (1 : Fin 2) = 0 :=
  (by decide +kernel : ∀ t : Fin grid5.N, win5_3.index t (0 : Fin 2) = 0 ∧ win5_3.index t (1 : Fin 2) = 0)

/-- Window 3's block at the one point is its whole array. -/
theorem block3_whole (c : Dev nD) (t : Fin cfg5.N) :
    iblk5 V c 3 t = (V c main_v83 : S1x32.Idx → Elt Ideal .f32) := by
  funext j
  show V c main_v83 (((cfg5.win 3).blk t).view.emb j) = V c main_v83 j
  refine congrArg _ (funext fun a => Fin.ext ?_)
  match a with
  | ⟨0, _⟩ => show win5_3.index t (0 : Fin 2) * 1 + 1 * (j 0).val = (j 0).val; rw [(origin3 t).1]; omega
  | ⟨1, _⟩ => show win5_3.index t (1 : Fin 2) * 32 + 1 * (j 1).val = (j 1).val; rw [(origin3 t).2]; omega

/-- Window 4's block index is (0, 0) at every point (decided over the grid). -/
theorem origin4 : ∀ t : Fin cfg5.N, win5_4.index t (0 : Fin 2) = 0 ∧ win5_4.index t (1 : Fin 2) = 0 :=
  (by decide +kernel : ∀ t : Fin grid5.N, win5_4.index t (0 : Fin 2) = 0 ∧ win5_4.index t (1 : Fin 2) = 0)

/-- Window 4's block at the one point is its whole array. -/
theorem block4_whole (c : Dev nD) (t : Fin cfg5.N) :
    iblk5 V c 4 t = (V c main_arg11 : S32x4.Idx → Elt Ideal .f32) := by
  funext j
  show V c main_arg11 (((cfg5.win 4).blk t).view.emb j) = V c main_arg11 j
  refine congrArg _ (funext fun a => Fin.ext ?_)
  match a with
  | ⟨0, _⟩ => show win5_4.index t (0 : Fin 2) * 32 + 1 * (j 0).val = (j 0).val; rw [(origin4 t).1]; omega
  | ⟨1, _⟩ => show win5_4.index t (1 : Fin 2) * 4 + 1 * (j 1).val = (j 1).val; rw [(origin4 t).2]; omega

/-- Window 5's block index is (0, 0) at every point (decided over the grid). -/
theorem origin5 : ∀ t : Fin cfg5.N, win5_5.index t (0 : Fin 2) = 0 ∧ win5_5.index t (1 : Fin 2) = 0 :=
  (by decide +kernel : ∀ t : Fin grid5.N, win5_5.index t (0 : Fin 2) = 0 ∧ win5_5.index t (1 : Fin 2) = 0)

/-- Window 5's block at the one point is its whole array. -/
theorem block5_whole (c : Dev nD) (t : Fin cfg5.N) :
    iblk5 V c 5 t = (V c main_v84 : S1x4.Idx → Elt Ideal .f32) := by
  funext j
  show V c main_v84 (((cfg5.win 5).blk t).view.emb j) = V c main_v84 j
  refine congrArg _ (funext fun a => Fin.ext ?_)
  match a with
  | ⟨0, _⟩ => show win5_5.index t (0 : Fin 2) * 1 + 1 * (j 0).val = (j 0).val; rw [(origin5 t).1]; omega
  | ⟨1, _⟩ => show win5_5.index t (1 : Fin 2) * 4 + 1 * (j 1).val = (j 1).val; rw [(origin5 t).2]; omega

/-- The output window's block index is (0, 0) at every point (decided over the grid). -/
theorem origin6 : ∀ t : Fin cfg5.N, win5_6.index t (0 : Fin 2) = 0 ∧ win5_6.index t (1 : Fin 2) = 0 :=
  (by decide +kernel : ∀ t : Fin grid5.N, win5_6.index t (0 : Fin 2) = 0 ∧ win5_6.index t (1 : Fin 2) = 0)

/-- The output's block at the one point, read out of a whole-array function, is that function. -/
theorem read_block6 (t : Fin cfg5.N) (G : S512x4.Idx → Elt Ideal .f32) :
    ((cfg5.win 6).blk t).view.read (Elt Ideal) G = G := by
  funext j
  show G (((cfg5.win 6).blk t).view.emb j) = G j
  refine congrArg _ (funext fun a => Fin.ext ?_)
  match a with
  | ⟨0, _⟩ => show win5_6.index t (0 : Fin 2) * 512 + 1 * (j 0).val = (j 0).val; rw [(origin6 t).1]; omega
  | ⟨1, _⟩ => show win5_6.index t (1 : Fin 2) * 4 + 1 * (j 1).val = (j 1).val; rw [(origin6 t).2]; omega

/-- What the one point writes back is the head of the six arrays as the region finds them. -/
theorem flushed_eq_head (c : Dev nD) (t : Fin cfg5.N) :
    (dat5 (F := Ideal) V c).flushed 6 t
      = ((cfg5.win 6).blk t).view.read (Elt Ideal)
          (head (V c main_v81) (V c main_v82) (V c main_arg9) (V c main_v83) (V c main_arg11) (V c main_v84)) := by
  show (cfg5.win 6).cut (grid5.coords t) ((dat5 (F := Ideal) V c).after 6 t) = _
  rw [after5_6]
  unfold out5_6
  rw [View.canon_unit_zero zero_offsets]
  simp only [View.ld_unit_zero (S := S512x128) zero_offsets, View.ld_unit_zero (S := S512x1) zero_offsets,
    View.ld_unit_zero (S := S128x32) zero_offsets, View.ld_unit_zero (S := S1x32) zero_offsets,
    View.ld_unit_zero (S := S32x4) zero_offsets, View.ld_unit_zero (S := S1x4) zero_offsets]
  rw [read_block6, block0_whole, block1_whole, block2_whole, block3_whole, block4_whole, block5_whole]
  exact payload_eq_head _ _ _ _ _ _

/-- An index of the output is in the one point's block iff each coordinate is in the block's range. -/
theorem mem_block6 (t : Fin cfg5.N) (i : S512x4.Idx) :
    i ∈ ((cfg5.win 6).blk t).view.set ↔ ∀ a : Fin 2, win5_6.index t a * S512x4.size a ≤ (i a).val ∧ (i a).val < win5_6.index t a * S512x4.size a + S512x4.size a := by
  show i ∈ ((View.whole main_v85).slice (win5_6.rect t)).set ↔ _
  rw [View.set_slice_whole, Rect.mem_set_unit]
  exact Iff.rfl

end Region5

open Region5 in
/-- The output array of the head's region after its run is the head of the six arrays as the region finds them. -/
theorem region5_value (c : Dev nD) :
    (dat5 (F := Ideal) V c).arrAt 6 cfg5.N
      = addf (Host.dotGeneral (F := Ideal) (φ₁ := .f32) (φ₂ := .f32) Cert.ReferenceIdeal.dot_S512x32_S32x4_S512x4_1_0_0_1_n_n none
          (maximumf (addf (Host.dotGeneral (F := Ideal) (φ₁ := .f32) (φ₂ := .f32) Cert.ReferenceIdeal.dot_S512x128_S128x32_S512x32_1_0_0_1_n_n none
              (Host.divf (V c main_v81 : (⟨Cert.ReferenceIdeal.S512x128, .f32⟩ : BufTy).Contents (Elt Ideal)) (broadcastInDim Cert.ReferenceIdeal.S512x128 ![0, 1] Cert.ReferenceIdeal.Facts₀.bcast_S512x1_S512x128_0_1
                (maximumf (V c main_v82) (broadcast S512x1 (Scalar.ofBits (F := Ideal) .f32 0x3F800000#32)))))
              (V c main_arg9 : (⟨Cert.ReferenceIdeal.S128x32, .f32⟩ : BufTy).Contents (Elt Ideal)))
            (broadcastInDim Cert.ReferenceIdeal.S512x32 ![0, 1] Cert.ReferenceIdeal.Facts₀.bcast_S1x32_S512x32_0_1 (V c main_v83)))
            (broadcastInDim Cert.ReferenceIdeal.S512x32 ![] Cert.ReferenceIdeal.Facts₀.bcast_S_S512x32 (constant (F := Ideal) Cert.ReferenceIdeal.S_ .f32 0x00000000#32)))
          (V c main_arg11 : (⟨Cert.ReferenceIdeal.S32x4, .f32⟩ : BufTy).Contents (Elt Ideal)))
        (broadcastInDim Cert.ReferenceIdeal.S512x4 ![0, 1] Cert.ReferenceIdeal.Facts₀.bcast_S1x4_S512x4_0_1 (V c main_v84)) := by
  refine (dat5 (F := Ideal) V c).arrAt_eq_of_cover 6
    (head (V c main_v81) (V c main_v82) (V c main_arg9) (V c main_v83) (V c main_arg11) (V c main_v84))
    (fun t _ => flushed_eq_head V c t) fun i => ⟨t5_0, flush5_6 _, ?_⟩
  rw [mem_block6]
  intro a
  match a with
  | ⟨0, _⟩ => show win5_6.index t5_0 (0 : Fin 2) * 512 ≤ (i 0).val ∧ (i 0).val < win5_6.index t5_0 (0 : Fin 2) * 512 + 512
              have hi : (i 0).val < 512 := (i 0).isLt
              rw [(origin6 t5_0).1]; omega
  | ⟨1, _⟩ => show win5_6.index t5_0 (1 : Fin 2) * 4 ≤ (i 1).val ∧ (i 1).val < win5_6.index t5_0 (1 : Fin 2) * 4 + 4
              have hi : (i 1).val < 4 := (i 1).isLt
              rw [(origin6 t5_0).2]; omega

end Cert.KernelIdeal.RegionValue

end
-- ==== Proof.Layout.lean ====
/-
  Small facts about layouts of a vector as a one-row or one-column matrix. The kernel's program hands a bias to a
  pallas_call as a row `reshape [n] → [1, n]` and the graph ids and the node counts as a column `reshape [n] → [n, 1]`;
  the reference forms the same matrices by `broadcast_in_dim` (dims = [1], dims = [0]). Both read the vector at the
  non-unit coordinate, so they are the same matrix, whatever the element type. The clamp of the node counts at one
  commutes with laying them out as a column.
-/
import Idealize.ShloMosaic.PureOps.Ideal
import Idealize.ShloMosaic.Lib.Pipeline.Value
import Idealize.ShloMosaic.Lib.ValueIdx

noncomputable section

namespace Cert.Layout

open Idealize.ShloMosaic

variable {α : Type}

/-- A vector as ONE ROW: the reshape `[n] → [1, n]` and `broadcast_in_dim` with dims = [1] both put `x k` at `(0, k)`. -/
theorem row_reshape_eq_broadcast (n : Nat) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) :
    shapeCast ⟨2, ![1, n]⟩ x h = broadcastInDim ⟨2, ![1, n]⟩ ![1] h' x := by
  funext j
  rw [shapeCast_addUnit_apply ![n] x h j]
  refine (broadcastInDim_apply ![1] h' x j (fun a => j a.succ) (fun a => ?_)).symm
  match a with
  | ⟨0, _⟩ =>
    show (j 1).val = if n = 1 then 0 else (j 1).val
    split_ifs with hn
    · have hlt : (j 1).val < n := (j 1).isLt
      omega
    · rfl

/-- A vector as ONE COLUMN: the reshape `[n] → [n, 1]` and `broadcast_in_dim` with dims = [0] both put `x k` at `(k, 0)`. -/
theorem col_reshape_eq_broadcast (n : Nat) (x : (⟨1, ![n]⟩ : Shape).Idx → α)
    (h : (⟨1, ![n]⟩ : Shape).ShapeCasts ⟨2, ![n, 1]⟩)
    (h' : (⟨1, ![n]⟩ : Shape).BroadcastsInDim ⟨2, ![n, 1]⟩ ![0]) :
    shapeCast ⟨2, ![n, 1]⟩ x h = broadcastInDim ⟨2, ![n, 1]⟩ ![0] h' x := by
  funext j
  have h0 : (j 0).val < n := (j 0).isLt
  have h1 : (j 1).val < 1 := (j 1).isLt
  let k : (⟨1, ![n]⟩ : Shape).Idx := fun a => match a with
    | ⟨0, _⟩ => ⟨(j 0).val, h0⟩
  rw [shapeCast_apply x h j k (by
      rw [Shape.rowMajor_val_one, Shape.rowMajor_val_two]
      show (j 0).val = (j 0).val * 1 + (j 1).val
      omega)]
  refine (broadcastInDim_apply ![0] h' x j k (fun a => ?_)).symm
  match a with
  | ⟨0, _⟩ =>
    show (j 0).val = if n = 1 then 0 else (j 0).val
    split_ifs with hn
    · omega
    · rfl

/-- The node counts clamped below at one, as a column: clamping the column laid out by a reshape against a column of
    ones is laying out (by `broadcast_in_dim`, dims = [0]) the vector clamped against a vector of ones. -/
theorem clamp_col {F : FTy → Type} [FloatOps F] (n : Nat) (w : BitVec 32) (cnt : (⟨1, ![n]⟩ : Shape).Idx → F .f32)
    (h : (⟨1, ![n]⟩ : Shape).ShapeCasts ⟨2, ![n, 1]⟩)
    (h' : (⟨1, ![n]⟩ : Shape).BroadcastsInDim ⟨2, ![n, 1]⟩ ![0])
    (h'' : (⟨0, ![]⟩ : Shape).BroadcastsInDim ⟨1, ![n]⟩ ![]) :
    maximumf (F := F) (shapeCast ⟨2, ![n, 1]⟩ cnt h) (broadcast ⟨2, ![n, 1]⟩ (Scalar.ofBits (F := F) .f32 w))
      = broadcastInDim ⟨2, ![n, 1]⟩ ![0] h' (maximumf (F := F) cnt (broadcastInDim ⟨1, ![n]⟩ ![] h'' (constant (F := F) ⟨0, ![]⟩ .f32 w))) := by
  rw [col_reshape_eq_broadcast n cnt h h']
  funext j
  have h0 : (j 0).val < n := (j 0).isLt
  let k : (⟨1, ![n]⟩ : Shape).Idx := fun a => match a with
    | ⟨0, _⟩ => ⟨(j 0).val, h0⟩
  have hk : ∀ a : Fin 1, (k a).val = if (⟨1, ![n]⟩ : Shape).size a = 1 then 0 else (j ((![0] : Fin 1 → Fin 2) a)).val := fun a => by
    match a with
    | ⟨0, _⟩ =>
      show (j 0).val = if n = 1 then 0 else (j 0).val
      split_ifs with hn
      · omega
      · rfl
  rw [broadcastInDim_apply ![0] h' _ j k hk]
  show FloatOps.maximumf (broadcastInDim ⟨2, ![n, 1]⟩ ![0] h' cnt j) _ = FloatOps.maximumf (cnt k) _
  rw [broadcastInDim_apply ![0] h' cnt j k hk]
  rfl

end Cert.Layout

end
-- ==== Proof.KernelValue.lean ====
/-
  What the kernel's program leaves in its result buffer, as a function of the arguments.
  The program is fourteen segments: host stretches (the self-loops, the degrees and the symmetric normalisation;
  after each dense layer the gather of source rows, the scaling and the scatter-add onto target rows; the node counts)
  alternating with six pallas_calls (x·W1; relu(agg + b)·W for the next two layers; relu(agg + b); the per-graph sums;
  the head). The host stretches are the reference's own operations on the same values; each pallas_call's output array
  is the reference's stretch of operations applied to the arrays the call found. So, walking the boundaries in order,
  every value the kernel's program holds is the reference's stage of the same name applied to the arguments, and the
  result is the reference's result.
-/
import proofs.«420813_j4252017623589_2_alg».proof.Proof.Region0
import proofs.«420813_j4252017623589_2_alg».proof.Proof.Region1
import proofs.«420813_j4252017623589_2_alg».proof.Proof.Region2
import proofs.«420813_j4252017623589_2_alg».proof.Proof.Region3
import proofs.«420813_j4252017623589_2_alg».proof.Proof.Region4
import proofs.«420813_j4252017623589_2_alg».proof.Proof.Region5
import proofs.«420813_j4252017623589_2_alg».proof.Proof.RefRead
import proofs.«420813_j4252017623589_2_alg».proof.Proof.Layout
import Idealize.ShloMosaic.Lib.StableHlo.Run

set_option maxRecDepth 16384

noncomputable section

open Idealize.ShloMosaic Idealize.ShloMosaic.TcCoe Idealize.SL.Sem

namespace Cert.KernelIdeal.Fold

open Cert.KernelIdeal Cert.KernelIdeal.Gen Cert.ReferenceIdeal.ReadP

/-- A buffer's contents at a boundary, walked back to an earlier boundary: through a pallas_call that does not have
    the buffer among its arrays (the arrays' injectivity), and through a host stretch none of whose operations writes it. -/
macro "walk_back " b:ident : tactic => `(tactic| (
  repeat (first
    | rw [W14_of_ne _ _ _ $b (by decide)]
    | rw [W12_of_ne _ _ _ $b (by decide)]
    | rw [W10_of_ne _ _ _ $b (by decide)]
    | rw [W8_of_ne _ _ _ $b (by decide)]
    | rw [W6_of_ne _ _ _ $b (by decide)]
    | rw [W4_of_ne _ _ _ $b (by decide)]
    | (dsimp only [W13, W11, W9, W7, W5, W3, W2, W1, hostOps0, hostOps0_1, hostOps0_2, hostOps1, hostOps2, hostOps3, hostOps4, hostOps5]
       after_results))))

/-! ## The two programs' dimension-number records are the same records

Both programs print the same gathers and scatters; each names its records in its own namespace. -/

theorem gatherVec_eq : Cert.KernelIdeal.gather_S50000_S850000x1_S850000_n_0_n_n_0_1_1 = Cert.ReferenceIdeal.gather_S50000_S850000x1_S850000_n_0_n_n_0_1_1 := rfl
theorem gather32_eq : Cert.KernelIdeal.gather_S50000x32_S850000x1_S850000x32_1_0_n_n_0_1_132 = Cert.ReferenceIdeal.gather_S50000x32_S850000x1_S850000x32_1_0_n_n_0_1_132 := rfl
theorem scatter32_eq : Cert.KernelIdeal.scatter_S50000x32_S850000x1_S850000x32_1_0_0_1 = Cert.ReferenceIdeal.scatter_S50000x32_S850000x1_S850000x32_1_0_0_1 := rfl
theorem gather64_eq : Cert.KernelIdeal.gather_S50000x64_S850000x1_S850000x64_1_0_n_n_0_1_164 = Cert.ReferenceIdeal.gather_S50000x64_S850000x1_S850000x64_1_0_n_n_0_1_164 := rfl
theorem scatter64_eq : Cert.KernelIdeal.scatter_S50000x64_S850000x1_S850000x64_1_0_0_1 = Cert.ReferenceIdeal.scatter_S50000x64_S850000x1_S850000x64_1_0_0_1 := rfl
theorem gather128_eq : Cert.KernelIdeal.gather_S50000x128_S850000x1_S850000x128_1_0_n_n_0_1_1128 = Cert.ReferenceIdeal.gather_S50000x128_S850000x1_S850000x128_1_0_n_n_0_1_1128 := rfl
theorem scatter128_eq : Cert.KernelIdeal.scatter_S50000x128_S850000x1_S850000x128_1_0_0_1 = Cert.ReferenceIdeal.scatter_S50000x128_S850000x1_S850000x128_1_0_0_1 := rfl

section AnyFloats

variable {F : FTy → Type} [FloatOps F]
variable (m : (ℓ : Loc nD τ sig) → Buf (Elt F) ℓ) (ρ : Dev nD → PrngReg) (c : Dev nD)

/-! ## The arguments, where a later segment reads them: nothing writes an argument -/

theorem arg0_at3 : W3 m ρ c (Proc.devRef .tc main_arg0) = m ((c : Thread nD τ).loc main_arg0) := by walk_back main_arg0
theorem arg3_at3 : W3 m ρ c (Proc.devRef .tc main_arg3) = m ((c : Thread nD τ).loc main_arg3) := by walk_back main_arg3
theorem arg4_at4 : W4 m ρ c (Proc.devRef .tc main_arg4) = m ((c : Thread nD τ).loc main_arg4) := by walk_back main_arg4
theorem arg5_at5 : W5 m ρ c (Proc.devRef .tc main_arg5) = m ((c : Thread nD τ).loc main_arg5) := by walk_back main_arg5
theorem arg6_at6 : W6 m ρ c (Proc.devRef .tc main_arg6) = m ((c : Thread nD τ).loc main_arg6) := by walk_back main_arg6
theorem arg7_at7 : W7 m ρ c (Proc.devRef .tc main_arg7) = m ((c : Thread nD τ).loc main_arg7) := by walk_back main_arg7
theorem arg8_at8 : W8 m ρ c (Proc.devRef .tc main_arg8) = m ((c : Thread nD τ).loc main_arg8) := by walk_back main_arg8
theorem arg2_at10 : W10 m ρ c (Proc.devRef .tc main_arg2) = m ((c : Thread nD τ).loc main_arg2) := by walk_back main_arg2
theorem arg10_at12 : W12 m ρ c (Proc.devRef .tc main_arg10) = m ((c : Thread nD τ).loc main_arg10) := by walk_back main_arg10
theorem arg12_at12 : W12 m ρ c (Proc.devRef .tc main_arg12) = m ((c : Thread nD τ).loc main_arg12) := by walk_back main_arg12
theorem arg9_at13 : W13 m ρ c (Proc.devRef .tc main_arg9) = m ((c : Thread nD τ).loc main_arg9) := by walk_back main_arg9
theorem arg11_at13 : W13 m ρ c (Proc.devRef .tc main_arg11) = m ((c : Thread nD τ).loc main_arg11) := by walk_back main_arg11

end AnyFloats

/-- The same walk, stopped at the third boundary (where the edge vectors and the normalisation are complete). -/
macro "walk_to3 " b:ident : tactic => `(tactic| (
  repeat (first
    | rw [W14_of_ne _ _ _ $b (by decide)]
    | rw [W12_of_ne _ _ _ $b (by decide)]
    | rw [W10_of_ne _ _ _ $b (by decide)]
    | rw [W8_of_ne _ _ _ $b (by decide)]
    | rw [W6_of_ne _ _ _ $b (by decide)]
    | rw [W4_of_ne _ _ _ $b (by decide)]
    | (dsimp only [W13, W11, W9, W7, W5, hostOps1, hostOps2, hostOps3, hostOps4, hostOps5]
       after_results))))

section HostStretches

variable {F : FTy → Type} [FloatOps F]
variable (m : (ℓ : Loc nD τ sig) → Buf (Elt F) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)

/-! ## Sources, targets, degrees, normalisation: the first three stretches are the reference's first operations -/

/-- The sources: the first row of the edge list, then the self-loops. -/
theorem src_at1 : W1 m ρ c (Proc.devRef .tc main_v3) = val_main_v3 (F := F) a1 := by
  dsimp only [W1, W0, hostOps0]; after_results; rfl
/-- The targets: the second row of the edge list, then the self-loops. -/
theorem dst_at1 : W1 m ρ c (Proc.devRef .tc main_v6) = val_main_v6 (F := F) a1 := by
  dsimp only [W1, W0, hostOps0]; after_results; rfl
/-- Which degrees are positive (the degree: ones scattered onto the targets). -/
theorem pos_at1 : W1 m ρ c (Proc.devRef .tc main_v12) = val_main_v12 (F := F) a1 := by
  dsimp only [W1, W0, hostOps0]; after_results; rfl
/-- The degrees' inverse square roots. -/
theorem rsqrt_at1 : W1 m ρ c (Proc.devRef .tc main_v13) = val_main_v13 (F := F) a1 := by
  dsimp only [W1, W0, hostOps0]; after_results; rfl
theorem zero_at1 : W1 m ρ c (Proc.devRef .tc main_cst_2) = val_main_cst_2 (F := F) := by
  dsimp only [W1, W0, hostOps0]; after_results; rfl

set_option maxHeartbeats 2000000 in
/-- The inverse square root where the degree is positive, zero elsewhere. -/
theorem dinv_at2 : W2 m ρ c (Proc.devRef .tc main_v14) = val_main_v14 (F := F) a1 := by
  have hp := pos_at1 m ρ c
  have hr := rsqrt_at1 m ρ c
  have hz := zero_at1 m ρ c
  dsimp only [W2, hostOps0_1]
  generalize W1 m ρ c = Wv at hp hr hz ⊢
  after_results_simp
  rw [hp, hr, hz]
  simp only [val_main_v14, val_main_call0_v1, val_main_call0_v0, StableHlo.TRef.ofBuf, StableHlo.TRef.toBuf, cast_eq]
theorem src_at2 : W2 m ρ c (Proc.devRef .tc main_v3) = val_main_v3 (F := F) a1 := by
  dsimp only [W2, hostOps0_1]; after_results; exact src_at1 m ρ c
theorem dst_at2 : W2 m ρ c (Proc.devRef .tc main_v6) = val_main_v6 (F := F) a1 := by
  dsimp only [W2, hostOps0_1]; after_results; exact dst_at1 m ρ c

set_option maxHeartbeats 2000000 in
/-- The edge weights: the product of the two gathered inverse square roots. -/
theorem norm_at3 : W3 m ρ c (Proc.devRef .tc main_v29) = val_main_v29 (F := F) a1 := by
  have hd := dinv_at2 m ρ c
  have hs := src_at2 m ρ c
  have ht := dst_at2 m ρ c
  dsimp only [W3, hostOps0_2]
  generalize W2 m ρ c = Wv at hd hs ht ⊢
  after_results_simp
  rw [hd, hs, ht, gatherVec_eq]
  simp only [val_main_v29, val_main_v28, val_main_v27, val_main_v26, val_main_v25, val_main_v24, val_main_c_5, val_main_v23, val_main_v22, val_main_c_4,
    val_main_v21, val_main_v20, val_main_v19, val_main_v18, val_main_v17, val_main_c_3, val_main_v16, val_main_v15, val_main_c]
theorem src_at3 : W3 m ρ c (Proc.devRef .tc main_v3) = val_main_v3 (F := F) a1 := by
  dsimp only [W3, hostOps0_2]; after_results; exact src_at2 m ρ c
theorem dst_at3 : W3 m ρ c (Proc.devRef .tc main_v6) = val_main_v6 (F := F) a1 := by
  dsimp only [W3, hostOps0_2]; after_results; exact dst_at2 m ρ c

/-! The three are read again by each aggregation: nothing in between writes them. -/
theorem src_at4 : W4 m ρ c (Proc.devRef .tc main_v3) = val_main_v3 (F := F) a1 := by walk_to3 main_v3; exact src_at3 m ρ c
theorem dst_at4 : W4 m ρ c (Proc.devRef .tc main_v6) = val_main_v6 (F := F) a1 := by walk_to3 main_v6; exact dst_at3 m ρ c
theorem norm_at4 : W4 m ρ c (Proc.devRef .tc main_v29) = val_main_v29 (F := F) a1 := by walk_to3 main_v29; exact norm_at3 m ρ c
theorem src_at6 : W6 m ρ c (Proc.devRef .tc main_v3) = val_main_v3 (F := F) a1 := by walk_to3 main_v3; exact src_at3 m ρ c
theorem dst_at6 : W6 m ρ c (Proc.devRef .tc main_v6) = val_main_v6 (F := F) a1 := by walk_to3 main_v6; exact dst_at3 m ρ c
theorem norm_at6 : W6 m ρ c (Proc.devRef .tc main_v29) = val_main_v29 (F := F) a1 := by walk_to3 main_v29; exact norm_at3 m ρ c
theorem src_at8 : W8 m ρ c (Proc.devRef .tc main_v3) = val_main_v3 (F := F) a1 := by walk_to3 main_v3; exact src_at3 m ρ c
theorem dst_at8 : W8 m ρ c (Proc.devRef .tc main_v6) = val_main_v6 (F := F) a1 := by walk_to3 main_v6; exact dst_at3 m ρ c
theorem norm_at8 : W8 m ρ c (Proc.devRef .tc main_v29) = val_main_v29 (F := F) a1 := by walk_to3 main_v29; exact norm_at3 m ρ c

/-! ## The three aggregations: gather the source rows, scale by the edge weights, scatter-add onto the target rows -/

set_option maxHeartbeats 2000000 in
/-- Layer 1's aggregation of whatever the first pallas_call left, if that is the reference's `x · W1`. -/
theorem agg1_at5 (h : W4 m ρ c (Proc.devRef .tc main_v30) = val_main_v30 (F := F) a0 a3) :
    W5 m ρ c (Proc.devRef .tc main_v43) = val_main_v43 (F := F) a0 a1 a3 := by
  dsimp only [W5, hostOps1]; after_results_simp
  rw [h, src_at4, dst_at4, norm_at4, gather32_eq, scatter32_eq]
  simp only [val_main_v43, val_main_v42, val_main_v41, val_main_cst_8, val_main_v40, val_main_v39, val_main_v38, val_main_v37, val_main_v36, val_main_v35,
    val_main_v34, val_main_v33, val_main_c_7, val_main_v32, val_main_v31, val_main_c_6]
/-- The first bias as a row. -/
theorem bias1_at5 : W5 m ρ c (Proc.devRef .tc main_v44) = val_main_v44 (F := F) a4 := by
  dsimp only [W5, hostOps1]; after_results
  rw [arg4_at4]; exact Cert.Layout.row_reshape_eq_broadcast 32 _ _ _

set_option maxHeartbeats 2000000 in
/-- Layer 2's aggregation. -/
theorem agg2_at7 (h : W6 m ρ c (Proc.devRef .tc main_v45) = val_main_v48 (F := F) a0 a1 a3 a4 a5) :
    W7 m ρ c (Proc.devRef .tc main_v58) = val_main_v61 (F := F) a0 a1 a3 a4 a5 := by
  dsimp only [W7, hostOps2]; after_results_simp
  rw [h, src_at6, dst_at6, norm_at6, gather64_eq, scatter64_eq]
  simp only [val_main_v61, val_main_v60, val_main_v59, val_main_cst_11, val_main_v58, val_main_v57, val_main_v56, val_main_v55, val_main_v54, val_main_v53,
    val_main_v52, val_main_v51, val_main_c_10, val_main_v50, val_main_v49, val_main_c_9]
theorem bias2_at7 : W7 m ρ c (Proc.devRef .tc main_v59) = val_main_v62 (F := F) a6 := by
  dsimp only [W7, hostOps2]; after_results
  rw [arg6_at6]; exact Cert.Layout.row_reshape_eq_broadcast 64 _ _ _

set_option maxHeartbeats 2000000 in
/-- Layer 3's aggregation. -/
theorem agg3_at9 (h : W8 m ρ c (Proc.devRef .tc main_v60) = val_main_v66 (F := F) a0 a1 a3 a4 a5 a6 a7) :
    W9 m ρ c (Proc.devRef .tc main_v73) = val_main_v79 (F := F) a0 a1 a3 a4 a5 a6 a7 := by
  dsimp only [W9, hostOps3]; after_results_simp
  rw [h, src_at8, dst_at8, norm_at8, gather128_eq, scatter128_eq]
  simp only [val_main_v79, val_main_v78, val_main_v77, val_main_cst_14, val_main_v76, val_main_v75, val_main_v74, val_main_v73, val_main_v72, val_main_v71,
    val_main_v70, val_main_v69, val_main_c_13, val_main_v68, val_main_v67, val_main_c_12]
theorem bias3_at9 : W9 m ρ c (Proc.devRef .tc main_v74) = val_main_v80 (F := F) a8 := by
  dsimp only [W9, hostOps3]; after_results
  rw [arg8_at8]; exact Cert.Layout.row_reshape_eq_broadcast 128 _ _ _

/-! ## The node counts and the graph ids as a column -/

theorem counts_at11 : W11 m ρ c (Proc.devRef .tc main_v79) = val_main_v90 (F := F) a2 := by
  dsimp only [W11, hostOps4]; after_results
  rw [arg2_at10]; rfl
theorem ids_at11 : W11 m ρ c (Proc.devRef .tc main_v80) = val_main_v85 (F := F) a2 := by
  dsimp only [W11, hostOps4]; after_results
  rw [arg2_at10]; exact Cert.Layout.col_reshape_eq_broadcast 50000 _ _ _
/-- The node features pass the counting stretch untouched. -/
theorem feat_at11 (h : W10 m ρ c (Proc.devRef .tc main_v75) = val_main_v83 (F := F) a0 a1 a3 a4 a5 a6 a7 a8) :
    W11 m ρ c (Proc.devRef .tc main_v75) = val_main_v83 (F := F) a0 a1 a3 a4 a5 a6 a7 a8 := by
  dsimp only [W11, hostOps4]; after_results; exact h

/-! ## Before the head: the counts as a column, the two head biases as rows -/

theorem countcol_at13 : W13 m ρ c (Proc.devRef .tc main_v82)
    = shapeCast S512x1 (val_main_v90 (F := F) a2) Facts₀.shapeCasts_S512_S512x1 := by
  dsimp only [W13, hostOps5]; after_results
  rw [W12_of_ne m ρ c main_v79 (by decide), counts_at11]
  rfl
theorem hbias1_at13 : W13 m ρ c (Proc.devRef .tc main_v83) = val_main_v97 (F := F) a10 := by
  dsimp only [W13, hostOps5]; after_results
  rw [arg10_at12]; exact Cert.Layout.row_reshape_eq_broadcast 32 _ _ _
theorem hbias2_at13 : W13 m ρ c (Proc.devRef .tc main_v84) = val_main_v102 (F := F) a12 := by
  dsimp only [W13, hostOps5]; after_results
  rw [arg12_at12]; exact Cert.Layout.row_reshape_eq_broadcast 4 _ _ _
/-- The per-graph sums pass the last stretch untouched. -/
theorem sums_at13 (h : W12 m ρ c (Proc.devRef .tc main_v81) = val_main_v86 (F := F) a0 a1 a2 a3 a4 a5 a6 a7 a8) :
    W13 m ρ c (Proc.devRef .tc main_v81) = val_main_v86 (F := F) a0 a1 a2 a3 a4 a5 a6 a7 a8 := by
  dsimp only [W13, hostOps5]; after_results; exact h

end HostStretches

/-! ## The six pallas_calls, each the reference's stretch of the arrays it found; and so the result -/

section Ideal

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)

/-- `x · W1`. -/
theorem lin1_at4 : W4 m ρ c (Proc.devRef .tc main_v30) = val_main_v30 (F := Ideal) a0 a3 := by
  refine (W4_arr m ρ c 2).trans ((RegionValue.region0_value (V3 m ρ) c).trans ?_)
  dsimp only [V3]
  rw [arg0_at3, arg3_at3]; rfl

/-- `relu(agg1 + b1) · W2`. -/
theorem lin2_at6 : W6 m ρ c (Proc.devRef .tc main_v45) = val_main_v48 (F := Ideal) a0 a1 a3 a4 a5 := by
  refine (W6_arr m ρ c 3).trans ((RegionValue.region1_value (V5 m ρ) c).trans ?_)
  dsimp only [V5]
  rw [agg1_at5 m ρ c (lin1_at4 m ρ c), bias1_at5, arg5_at5]; rfl

/-- `relu(agg2 + b2) · W3`. -/
theorem lin3_at8 : W8 m ρ c (Proc.devRef .tc main_v60) = val_main_v66 (F := Ideal) a0 a1 a3 a4 a5 a6 a7 := by
  refine (W8_arr m ρ c 3).trans ((RegionValue.region2_value (V7 m ρ) c).trans ?_)
  dsimp only [V7]
  rw [agg2_at7 m ρ c (lin2_at6 m ρ c), bias2_at7, arg7_at7]; rfl

/-- The node features `relu(agg3 + b3)`. -/
theorem feat_at10 : W10 m ρ c (Proc.devRef .tc main_v75) = val_main_v83 (F := Ideal) a0 a1 a3 a4 a5 a6 a7 a8 := by
  refine (W10_arr m ρ c 2).trans ((RegionValue.region3_value (V9 m ρ) c).trans ?_)
  dsimp only [V9]
  rw [agg3_at9 m ρ c (lin3_at8 m ρ c), bias3_at9]; rfl

/-- The per-graph sums of the node features. -/
theorem sums_at12 : W12 m ρ c (Proc.devRef .tc main_v81) = val_main_v86 (F := Ideal) a0 a1 a2 a3 a4 a5 a6 a7 a8 := by
  refine (W12_arr m ρ c 2).trans ((RegionValue.region4_value (V11 m ρ) c).trans ?_)
  dsimp only [V11]
  rw [ids_at11, feat_at11 m ρ c (feat_at10 m ρ c)]; rfl

/-- THE RESULT: what the last pallas_call leaves in the result buffer is the reference's result of the arguments. -/
theorem result_eq : W14 m ρ c (Proc.devRef .tc main_v85)
    = val_main_v104 (F := Ideal) a0 a1 a2 a3 a4 a5 a6 a7 a8 a9 a10 a11 a12 := by
  refine (W14_arr m ρ c 6).trans ((RegionValue.region5_value (V13 m ρ) c).trans ?_)
  dsimp only [V13]
  rw [sums_at13 m ρ c (sums_at12 m ρ c), countcol_at13, arg9_at13, hbias1_at13, arg11_at13, hbias2_at13]
  have hclamp : maximumf (F := Ideal) (shapeCast S512x1 (val_main_v90 (F := Ideal) a2) Facts₀.shapeCasts_S512_S512x1)
      (broadcast S512x1 (Scalar.ofBits (F := Ideal) .f32 0x3F800000#32)) = val_main_v93 (F := Ideal) a2 :=
    Cert.Layout.clamp_col (F := Ideal) 512 0x3F800000#32 (val_main_v90 (F := Ideal) a2) Facts₀.shapeCasts_S512_S512x1
      Cert.ReferenceIdeal.Facts₀.bcast_S512_S512x1_0 Cert.ReferenceIdeal.Facts₀.bcast_S_S512
  rw [hclamp]
  rfl

end Ideal

end Cert.KernelIdeal.Fold

end
-- ==== Proof.lean ====
/-
  A three-layer graph convolution network with a mean pool and a two-layer head, as six Pallas calls between the
  edge-level gathers and scatter-adds, against its jnp reference, over the extended reals.

  Both programs do the same host arithmetic on the edge list (self-loops, degrees, the symmetric weights
  `deg^(-1/2)[src] · deg^(-1/2)[dst]`; per layer: gather the source rows, scale, scatter-add onto the target rows). The
  kernel's program computes, in Pallas calls tiled over the rows,
    `x · W1`,  `relu(agg + b) · W` twice,  `relu(agg + b)`,
  the per-graph sums as a product with the one-hot matrix of the graph ids accumulated over 25 row tiles, and the head
  `relu((sums / max(counts, 1)) · Wf1 + bf1) · Wf2 + bf2`; the reference computes the same with `dot_general`, a
  scatter-add for the sums (`segment_sum`), and the host's divide. At the ideal instance a change of float format is the
  identity, a matrix unit's product onto a zero accumulator is the host's `dot_general`, and the one-hot product is the
  scatter-add (`0 · x = 0` and `1 · x = x` for every extended real, sums commute), so no finiteness is used: each Pallas
  call's output array is the reference's stretch of operations applied to the arrays the call found (one module per
  call), and walking the program's boundaries in order the result buffer holds the reference's result of the arguments.

  The three frames are the generated ones (the reference's is its run with the result dropped); the ideal pass rewrote
  nothing, so `preserves` is `True`.
-/
import proofs.«420813_j4252017623589_2_alg».proof.Defs
import proofs.«420813_j4252017623589_2_alg».proof.Proof.Gen.Kernel
import proofs.«420813_j4252017623589_2_alg».proof.Proof.Gen.Kernel.Frame
import proofs.«420813_j4252017623589_2_alg».proof.Proof.Gen.KernelIdeal
import proofs.«420813_j4252017623589_2_alg».proof.Proof.Gen.KernelIdeal.Frame
import proofs.«420813_j4252017623589_2_alg».proof.Proof.Gen.ReferenceIdeal
import proofs.«420813_j4252017623589_2_alg».proof.Proof.Gen.Pre_finite_inputs
import proofs.«420813_j4252017623589_2_alg».proof.Proof.KernelRun
import proofs.«420813_j4252017623589_2_alg».proof.Proof.KernelValue
import proofs.«420813_j4252017623589_2_alg».proof.Proof.RefRun
import proofs.«420813_j4252017623589_2_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end, the kernel's result buffer at what its last boundary holds, the reference's at its composed
    term of the arguments; the first is the reference's last stage of the kernel's arguments (`Fold.result_eq`), the
    second is the same stage of the reference's arguments, and the arguments agree. -/
theorem algebraic : Cert.algebraic_KernelIdeal_ReferenceIdeal := by
  intro m ρ m' ρ' _ hagree
  refine ⟨fun c => Cert.KernelIdeal.Gen.W14 m ρ c (Proc.devRef .tc Cert.KernelIdeal.main_v85),
    Cert.KernelIdeal.Run.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  show _ = Cert.KernelIdeal.Gen.W14 m ρ c (Proc.devRef .tc Cert.KernelIdeal.main_v85)
  obtain ⟨h0, h1, h2, h3, h4, h5, h6, h7, h8, h9, h10, h11, h12⟩ := hagree c
  rw [Cert.ReferenceIdeal.ReadP.val_main_v104_eq, Cert.KernelIdeal.Fold.result_eq m ρ c,
    h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
